-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S2000000 : Shape := ⟨1, ![2000000]⟩
abbrev S100000x64 : Shape := ⟨2, ![100000, 64]⟩
abbrev S50000x64 : Shape := ⟨2, ![50000, 64]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S16384 32) (main_arg1 : IVec S16384 32) (main_arg2 : IVec S2000000 32) (main_arg3 : IVec S2000000 32) (main_arg4 : FVec F S2000000 .f32) (main_arg5 : FVec F S100000x64 .f32) (main_arg6 : FVec F S50000x64 .f32) : IVec S_ 1 :=
  let main_v0 : FVec F S2000000 .f32 := Host.absf main_arg4
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg6
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  main_v13
-- ==== Kernel.lean ====
abbrev S16384 : Shape := ⟨1, ![16384]⟩
abbrev S2000000 : Shape := ⟨1, ![2000000]⟩
abbrev S100000x64 : Shape := ⟨2, ![100000, 64]⟩
abbrev S50000x64 : Shape := ⟨2, ![50000, 64]⟩
abbrev S150000x64 : Shape := ⟨2, ![150000, 64]⟩
abbrev S_ : Shape := ⟨0, ![]⟩
abbrev S2000000x1 : Shape := ⟨2, ![2000000, 1]⟩
abbrev S2000000x64 : Shape := ⟨2, ![2000000, 64]⟩
abbrev S16000x1 : Shape := ⟨2, ![16000, 1]⟩
abbrev S16000x64 : Shape := ⟨2, ![16000, 64]⟩
abbrev S1000x64 : Shape := ⟨2, ![1000, 64]⟩
abbrev S16384x1 : Shape := ⟨2, ![16384, 1]⟩
abbrev S16384x64 : Shape := ⟨2, ![16384, 64]⟩

abbrev nBuf : Space → Nat
  | .hbm => 81
  | .vmem => 39
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S100000x64, .f32⟩
  | .hbm, ⟨6, _⟩ => ⟨S50000x64, .f32⟩
  | .hbm, ⟨7, _⟩ => ⟨S150000x64, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x64, .f32⟩
  | .hbm, ⟨17, _⟩ => ⟨S2000000x1, .f32⟩
  | .hbm, ⟨18, _⟩ => ⟨S2000000x64, .f32⟩
  | .hbm, ⟨19, _⟩ => ⟨S_, .f32⟩
  | .hbm, ⟨20, _⟩ => ⟨S150000x64, .f32⟩
  | .hbm, ⟨21, _⟩ => ⟨S2000000x1, .i32⟩
  | .hbm, ⟨22, _⟩ => ⟨S150000x64, .f32⟩
  | .hbm, ⟨23, _⟩ => ⟨S150000x64, .f32⟩
  | .hbm, ⟨24, _⟩ => ⟨S_, .i32⟩
  | .hbm, ⟨25, _⟩ => ⟨S2000000, .i32⟩
  | .hbm, ⟨26, _⟩ => ⟨S2000000, .i1⟩
  | .hbm, ⟨27, _⟩ => ⟨S_, .i32⟩
  | .hbm, ⟨28, _⟩ => ⟨S2000000, .i32⟩
  | .hbm, ⟨29, _⟩ => ⟨S2000000, .i32⟩
  | .hbm, ⟨30, _⟩ => ⟨S2000000, .i32⟩
  | .hbm, ⟨31, _⟩ => ⟨S2000000x1, .i32⟩
  | .hbm, ⟨32, _⟩ => ⟨S2000000x64, .f32⟩
  | .hbm, ⟨33, _⟩ => ⟨S2000000x1, .f32⟩
  | .hbm, ⟨34, _⟩ => ⟨S2000000x64, .f32⟩
  | .hbm, ⟨35, _⟩ => ⟨S_, .f32⟩
  | .hbm, ⟨36, _⟩ => ⟨S150000x64, .f32⟩
  | .hbm, ⟨37, _⟩ => ⟨S2000000x1, .i32⟩
  | .hbm, ⟨38, _⟩ => ⟨S150000x64, .f32⟩
  | .hbm, ⟨39, _⟩ => ⟨S150000x64, .f32⟩
  | .hbm, ⟨40, _⟩ => ⟨S_, .i32⟩
  | .hbm, ⟨41, _⟩ => ⟨S2000000, .i32⟩
  | .hbm, ⟨42, _⟩ => ⟨S2000000, .i1⟩
  | .hbm, ⟨43, _⟩ => ⟨S_, .i32⟩
  | .hbm, ⟨44, _⟩ => ⟨S2000000, .i32⟩
  | .hbm, ⟨45, _⟩ => ⟨S2000000, .i32⟩
  | .hbm, ⟨46, _⟩ => ⟨S2000000, .i32⟩
  | .hbm, ⟨47, _⟩ => ⟨S2000000x1, .i32⟩
  | .hbm, ⟨48, _⟩ => ⟨S2000000x64, .f32⟩
  | .hbm, ⟨49, _⟩ => ⟨S2000000x1, .f32⟩
  | .hbm, ⟨50, _⟩ => ⟨S2000000x64, .f32⟩
  | .hbm, ⟨51, _⟩ => ⟨S_, .f32⟩
  | .hbm, ⟨52, _⟩ => ⟨S150000x64, .f32⟩
  | .hbm, ⟨53, _⟩ => ⟨S2000000x1, .i32⟩
  | .hbm, ⟨54, _⟩ => ⟨S150000x64, .f32⟩
  | .hbm, ⟨55, _⟩ => ⟨S150000x64, .f32⟩
  | .hbm, ⟨56, _⟩ => ⟨S_, .f32⟩
  | .hbm, ⟨57, _⟩ => ⟨S150000x64, .f32⟩
  | .hbm, ⟨58, _⟩ => ⟨S150000x64, .f32⟩
  | .hbm, ⟨59, _⟩ => ⟨S100000x64, .f32⟩
  | .hbm, ⟨60, _⟩ => ⟨S50000x64, .f32⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S_, .i32⟩
  | .hbm, ⟨65, _⟩ => ⟨S16384, .i32⟩
  | .hbm, ⟨66, _⟩ => ⟨S16384, .i32⟩
  | .hbm, ⟨67, _⟩ => ⟨S16384, .i32⟩
  | .hbm, ⟨68, _⟩ => ⟨S16384x1, .i32⟩
  | .hbm, ⟨69, _⟩ => ⟨S16384x64, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S16384x64, .f32⟩
  | .hbm, ⟨79, _⟩ => ⟨S16384x1, .f32⟩
  | .hbm, ⟨80, _⟩ => ⟨S16384, .f32⟩
  | .local _ .vmem, ⟨0, _⟩ => ⟨S16000x1, .f32⟩
  | .local _ .vmem, ⟨1, _⟩ => ⟨S16000x1, .f32⟩
  | .local _ .vmem, ⟨2, _⟩ => ⟨S16000x64, .f32⟩
  | .local _ .vmem, ⟨3, _⟩ => ⟨S16000x64, .f32⟩
  | .local _ .vmem, ⟨4, _⟩ => ⟨S16000x64, .f32⟩
  | .local _ .vmem, ⟨5, _⟩ => ⟨S16000x64, .f32⟩
  | .local _ .vmem, ⟨6, _⟩ => ⟨S1000x64, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S16000x1, .f32⟩
  | .local _ .vmem, ⟨13, _⟩ => ⟨S16000x1, .f32⟩
  | .local _ .vmem, ⟨14, _⟩ => ⟨S16000x64, .f32⟩
  | .local _ .vmem, ⟨15, _⟩ => ⟨S16000x64, .f32⟩
  | .local _ .vmem, ⟨16, _⟩ => ⟨S16000x64, .f32⟩
  | .local _ .vmem, ⟨17, _⟩ => ⟨S16000x64, .f32⟩
  | .local _ .vmem, ⟨18, _⟩ => ⟨S1000x64, .f32⟩
  | .local _ .vmem, ⟨19, _⟩ => ⟨S1000x64, .f32⟩
  | .local _ .vmem, ⟨20, _⟩ => ⟨S1000x64, .f32⟩
  | .local _ .vmem, ⟨21, _⟩ => ⟨S1000x64, .f32⟩
  | .local _ .vmem, ⟨22, _⟩ => ⟨S1000x64, .f32⟩
  | .local _ .vmem, ⟨23, _⟩ => ⟨S1000x64, .f32⟩
  | .local _ .vmem, ⟨24, _⟩ => ⟨S16000x1, .f32⟩
  | .local _ .vmem, ⟨25, _⟩ => ⟨S16000x1, .f32⟩
  | .local _ .vmem, ⟨26, _⟩ => ⟨S16000x64, .f32⟩
  | .local _ .vmem, ⟨27, _⟩ => ⟨S16000x64, .f32⟩
  | .local _ .vmem, ⟨28, _⟩ => ⟨S16000x64, .f32⟩
  | .local _ .vmem, ⟨29, _⟩ => ⟨S16000x64, .f32⟩
  | .local _ .vmem, ⟨30, _⟩ => ⟨S1000x64, .f32⟩
  | .local _ .vmem, ⟨31, _⟩ => ⟨S1000x64, .f32⟩
  | .local _ .vmem, ⟨32, _⟩ => ⟨S1000x64, .f32⟩
  | .local _ .vmem, ⟨33, _⟩ => ⟨S1000x64, .f32⟩
  | .local _ .vmem, ⟨34, _⟩ => ⟨S1000x64, .f32⟩
  | .local _ .vmem, ⟨35, _⟩ => ⟨S1000x64, .f32⟩
  | .local _ .vmem, ⟨36, _⟩ => ⟨S16384x64, .f32⟩
  | .local _ .vmem, ⟨37, _⟩ => ⟨S16384x64, .f32⟩
  | .local _ .vmem, ⟨38, _⟩ => ⟨S16384x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_c_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem1_0 : DmaSem sig := 37
abbrev cc6_sem2_0 : DmaSem sig := 38

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![150], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S16000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![150], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S16384x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S16384x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16384x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  concatenates_S100000x64_S50000x64_S150000x64_d0 : Shape.Concatenates [S100000x64, S50000x64] S150000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000_S2000000x1 : S2000000.ShapeCasts S2000000x1
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  broadcasts_S16000x1_S16000x64 : S16000x1.Broadcasts S16000x64
  bcast_S_S150000x64 : S_.BroadcastsInDim S150000x64 (![] : Fin 0 → Fin S150000x64.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S16384x64_S16384 : S16384x64.Reduces [1] S16384
  shapeCasts_S16384_S16384x1 : S16384.ShapeCasts S16384x1
  inb_S16384x1_S16384x1_0_0 : ∀ a, (![0, 0] : Fin 2 → Nat) a + S16384x1.size a ≤ S16384x1.size a
  h_S16384x1 : 0 < S16384x1.numel
  shapeCasts_S16384x1_S16384 : S16384x1.ShapeCasts S16384
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x1.size a ≤ S2000000x1.size a
  hwx0_0 : ∀ i : grid0.Coords, EltTy.bits .f32 = 32 ∨ (Rect.block (s := S2000000x1) S16000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S2000000x64.size a
  hwx0_1 : ∀ i : grid0.Coords, EltTy.bits .f32 = 32 ∨ (Rect.block (s := S2000000x64) S16000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S2000000x64.size a
  hwx0_2 : ∀ i : grid0.Coords, EltTy.bits .f32 = 32 ∨ (Rect.block (s := S2000000x64) S16000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S150000x64.size a
  hwx1_0 : ∀ i : grid1.Coords, EltTy.bits .f32 = 32 ∨ (Rect.block (s := S150000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S150000x64.size a
  hwx1_1 : ∀ i : grid1.Coords, EltTy.bits .f32 = 32 ∨ (Rect.block (s := S150000x64) S1000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S150000x64.size a
  hwx1_2 : ∀ i : grid1.Coords, EltTy.bits .f32 = 32 ∨ (Rect.block (s := S150000x64) S1000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x1.size a ≤ S2000000x1.size a
  hwx2_0 : ∀ i : grid2.Coords, EltTy.bits .f32 = 32 ∨ (Rect.block (s := S2000000x1) S16000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x64.size a ≤ S2000000x64.size a
  hwx2_1 : ∀ i : grid2.Coords, EltTy.bits .f32 = 32 ∨ (Rect.block (s := S2000000x64) S16000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x64.size a ≤ S2000000x64.size a
  hwx2_2 : ∀ i : grid2.Coords, EltTy.bits .f32 = 32 ∨ (Rect.block (s := S2000000x64) S16000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S150000x64.size a
  hwx3_0 : ∀ i : grid3.Coords, EltTy.bits .f32 = 32 ∨ (Rect.block (s := S150000x64) S1000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S150000x64.size a
  hwx3_1 : ∀ i : grid3.Coords, EltTy.bits .f32 = 32 ∨ (Rect.block (s := S150000x64) S1000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S150000x64.size a
  hwx3_2 : ∀ i : grid3.Coords, EltTy.bits .f32 = 32 ∨ (Rect.block (s := S150000x64) S1000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16000x1.size a ≤ S2000000x1.size a
  hwx4_0 : ∀ i : grid4.Coords, EltTy.bits .f32 = 32 ∨ (Rect.block (s := S2000000x1) S16000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S16000x64.size a ≤ S2000000x64.size a
  hwx4_1 : ∀ i : grid4.Coords, EltTy.bits .f32 = 32 ∨ (Rect.block (s := S2000000x64) S16000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16000x64.size a ≤ S2000000x64.size a
  hwx4_2 : ∀ i : grid4.Coords, EltTy.bits .f32 = 32 ∨ (Rect.block (s := S2000000x64) S16000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x64.size a ≤ S150000x64.size a
  hwx5_0 : ∀ i : grid5.Coords, EltTy.bits .f32 = 32 ∨ (Rect.block (s := S150000x64) S1000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x64.size a ≤ S150000x64.size a
  hwx5_1 : ∀ i : grid5.Coords, EltTy.bits .f32 = 32 ∨ (Rect.block (s := S150000x64) S1000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x64.size a ≤ S150000x64.size a
  hwx5_2 : ∀ i : grid5.Coords, EltTy.bits .f32 = 32 ∨ (Rect.block (s := S150000x64) S1000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S16384x64.size a ≤ S16384x64.size a
  hwx6_0 : ∀ i : grid6.Coords, EltTy.bits .f32 = 32 ∨ (Rect.block (s := S16384x64) S16384x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16384x64.size a ≤ S16384x64.size a
  hwx6_1 : ∀ i : grid6.Coords, EltTy.bits .f32 = 32 ∨ (Rect.block (s := S16384x64) S16384x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16384x1.size a ≤ S16384x1.size a
  hwx6_2 : ∀ i : grid6.Coords, EltTy.bits .f32 = 32 ∨ (Rect.block (s := S16384x1) S16384x1.size (cc6_transform_2 i) (hinb6_2 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

abbrev win0_0 : Pipeline.Window sig grid0 :=
  Pipeline.Window.ofSpec (Memref.whole main_v8) S16000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v21) S16000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S16000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S16000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v13) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v34) S16000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S16000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S16000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v26) S1000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S1000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39) S1000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v50) S16384x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v57) S16384x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v58) S16384x1.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S16384 : Shape := ⟨1, ![16384]⟩
abbrev S2000000 : Shape := ⟨1, ![2000000]⟩
abbrev S100000x64 : Shape := ⟨2, ![100000, 64]⟩
abbrev S50000x64 : Shape := ⟨2, ![50000, 64]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S16384x1 : Shape := ⟨2, ![16384, 1]⟩
abbrev S16384x64 : Shape := ⟨2, ![16384, 64]⟩

abbrev nBuf : Space → Nat
  | .hbm => 85
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S100000x64, .f32⟩
  | .hbm, ⟨6, _⟩ => ⟨S50000x64, .f32⟩
  | .hbm, ⟨7, _⟩ => ⟨S150000x64, .f32⟩
  | .hbm, ⟨8, _⟩ => ⟨S2000000x1, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x64, .f32⟩
  | .hbm, ⟨18, _⟩ => ⟨S2000000x64, .f32⟩
  | .hbm, ⟨19, _⟩ => ⟨S2000000x64, .f32⟩
  | .hbm, ⟨20, _⟩ => ⟨S_, .f32⟩
  | .hbm, ⟨21, _⟩ => ⟨S150000x64, .f32⟩
  | .hbm, ⟨22, _⟩ => ⟨S2000000x1, .i32⟩
  | .hbm, ⟨23, _⟩ => ⟨S150000x64, .f32⟩
  | .hbm, ⟨24, _⟩ => ⟨S150000x64, .f32⟩
  | .hbm, ⟨25, _⟩ => ⟨S2000000x1, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x64, .f32⟩
  | .hbm, ⟨35, _⟩ => ⟨S2000000x64, .f32⟩
  | .hbm, ⟨36, _⟩ => ⟨S2000000x64, .f32⟩
  | .hbm, ⟨37, _⟩ => ⟨S_, .f32⟩
  | .hbm, ⟨38, _⟩ => ⟨S150000x64, .f32⟩
  | .hbm, ⟨39, _⟩ => ⟨S2000000x1, .i32⟩
  | .hbm, ⟨40, _⟩ => ⟨S150000x64, .f32⟩
  | .hbm, ⟨41, _⟩ => ⟨S150000x64, .f32⟩
  | .hbm, ⟨42, _⟩ => ⟨S2000000x1, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x64, .f32⟩
  | .hbm, ⟨52, _⟩ => ⟨S2000000x64, .f32⟩
  | .hbm, ⟨53, _⟩ => ⟨S2000000x64, .f32⟩
  | .hbm, ⟨54, _⟩ => ⟨S_, .f32⟩
  | .hbm, ⟨55, _⟩ => ⟨S150000x64, .f32⟩
  | .hbm, ⟨56, _⟩ => ⟨S2000000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S100000x64, .f32⟩
  | .hbm, ⟨63, _⟩ => ⟨S50000x64, .f32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S16384x64, .f32⟩
  | .hbm, ⟨73, _⟩ => ⟨S_, .i32⟩
  | .hbm, ⟨74, _⟩ => ⟨S16384, .i32⟩
  | .hbm, ⟨75, _⟩ => ⟨S16384, .i1⟩
  | .hbm, ⟨76, _⟩ => ⟨S_, .i32⟩
  | .hbm, ⟨77, _⟩ => ⟨S16384, .i32⟩
  | .hbm, ⟨78, _⟩ => ⟨S16384, .i32⟩
  | .hbm, ⟨79, _⟩ => ⟨S16384, .i32⟩
  | .hbm, ⟨80, _⟩ => ⟨S16384x1, .i32⟩
  | .hbm, ⟨81, _⟩ => ⟨S16384x64, .f32⟩
  | .hbm, ⟨82, _⟩ => ⟨S16384x64, .f32⟩
  | .hbm, ⟨83, _⟩ => ⟨S_, .f32⟩
  | .hbm, ⟨84, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.Spec.lean ====
/- The computation both programs perform, as a chain of functions of the seven argument arrays, at any float
   instance. A table of 150000 node rows (users above items) is propagated three times along the edge list: each edge
   takes the row its column index names, scales it by the edge's weight, and adds it into the row its row index
   names. The table and the three propagated tables are added, divided by four, split back into user and item rows,
   and each of 16384 (user, item) pairs scores the sum over 64 lanes of the products of its two rows.
   The kernel's program and the reference's differ in three places only, and there only in form: the edge weights
   as a column (a reshape against a broadcast), the running sum (a block-wise sum against a whole-array one), and
   the final row sums (a lane reduction stored as a column and reshaped, against a host reduction). -/
import proofs.«159684_j14748917694876_1_alg».proof.Proof.Gen.KernelIdeal.Skeleton

noncomputable section

namespace Cert.KernelIdeal.Spec

open Cert.KernelIdeal Cert.KernelIdeal.Gen
open Idealize.ShloMosaic

variable {F : FTy → Type} [FloatOps F]

/-- A column [2000000, 1] spreads along the 64 lanes. -/
theorem spreads : S2000000x1.BroadcastsInDim S2000000x64 (![0, 1] : Fin 2 → Fin S2000000x64.rank) := by decide
/-- Summing a [16384, 64] array along its lanes leaves 16384 entries. -/
theorem rowSums : S16384x64.ReducesTo [1] S16384 := by decide
theorem scalar_pos : 0 < S_.numel := by decide

/-- The node table: the user rows above the item rows. -/
def table (users : FVec F S100000x64 .f32) (items : FVec F S50000x64 .f32) : FVec F S150000x64 .f32 :=
  concatenate S150000x64 0 [⟨S100000x64, users⟩, ⟨S50000x64, items⟩] concatenates_S100000x64_S50000x64_S150000x64_d0

/-- An edge list's node indices as the host reads them for a gather: a negative index counts from the table's end. -/
def edgeRows (cols : IVec S2000000 32) : IVec S2000000x1 32 :=
  broadcastInDim S2000000x1 ![0] bcast_S2000000_S2000000x1_0
    (select (cmpi .slt cols (broadcastInDim S2000000 ![] bcast_S_S2000000 (constantI S_ 32 0#32)))
      (addi cols (broadcastInDim S2000000 ![] bcast_S_S2000000 (constantI S_ 32 150000#32))) cols)

/-- A batch's row indices into a table of `n` rows, read the same way. -/
def batchRows (n : BitVec 32) (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 n))) ids)

/-- The edge weights as a column. -/
def column (vals : FVec F S2000000 .f32) : FVec F S2000000x1 .f32 :=
  broadcastInDim S2000000x1 ![0] bcast_S2000000_S2000000x1_0 vals

/-- Each edge's gathered row scaled by the edge's weight. -/
def messages (vals : FVec F S2000000 .f32) (rows : FVec F S2000000x64 .f32) : FVec F S2000000x64 .f32 :=
  mulf (broadcastInDim S2000000x64 ![0, 1] spreads (column vals)) rows

/-- The messages added into the rows their edges point at, from a table of zeros. -/
def collect (rowIdx : IVec S2000000 32) (msgs : FVec F S2000000x64 .f32) : FVec F S150000x64 .f32 :=
  Host.scatterAdd scatter_S150000x64_S2000000x1_S2000000x64_1_0_0_1
    (broadcastInDim S150000x64 ![] bcast_S_S150000x64 (constant S_ .f32 0x00000000#32))
    (broadcastInDim S2000000x1 ![0] bcast_S2000000_S2000000x1_0 rowIdx) msgs

/-- The rows an edge list's column indices name. -/
def gathered (cols : IVec S2000000 32) (x : FVec F S150000x64 .f32) : FVec F S2000000x64 .f32 :=
  Host.gather gather_S150000x64_S2000000x1_S2000000x64_1_0_n_n_0_1_164 x (edgeRows cols)

/-- One propagation of a table along the edges. -/
def propagate (rowIdx cols : IVec S2000000 32) (vals : FVec F S2000000 .f32) (x : FVec F S150000x64 .f32) :
    FVec F S150000x64 .f32 :=
  collect rowIdx (messages vals (gathered cols x))

/-- The table after one, two and three propagations. -/
def layer1 (rowIdx cols : IVec S2000000 32) (vals : FVec F S2000000 .f32) (x0 : FVec F S150000x64 .f32) : FVec F S150000x64 .f32 :=
  propagate rowIdx cols vals x0
def layer2 (rowIdx cols : IVec S2000000 32) (vals : FVec F S2000000 .f32) (x0 : FVec F S150000x64 .f32) : FVec F S150000x64 .f32 :=
  propagate rowIdx cols vals (layer1 rowIdx cols vals x0)
def layer3 (rowIdx cols : IVec S2000000 32) (vals : FVec F S2000000 .f32) (x0 : FVec F S150000x64 .f32) : FVec F S150000x64 .f32 :=
  propagate rowIdx cols vals (layer2 rowIdx cols vals x0)

/-- The running sums: the table plus the first, the first two, and all three propagated tables. -/
def sum1 (rowIdx cols : IVec S2000000 32) (vals : FVec F S2000000 .f32) (x0 : FVec F S150000x64 .f32) : FVec F S150000x64 .f32 :=
  addf x0 (layer1 rowIdx cols vals x0)
def sum2 (rowIdx cols : IVec S2000000 32) (vals : FVec F S2000000 .f32) (x0 : FVec F S150000x64 .f32) : FVec F S150000x64 .f32 :=
  addf (sum1 rowIdx cols vals x0) (layer2 rowIdx cols vals x0)
def sum3 (rowIdx cols : IVec S2000000 32) (vals : FVec F S2000000 .f32) (x0 : FVec F S150000x64 .f32) : FVec F S150000x64 .f32 :=
  addf (sum2 rowIdx cols vals x0) (layer3 rowIdx cols vals x0)

/-- The mean of the four tables. -/
def averaged (rowIdx cols : IVec S2000000 32) (vals : FVec F S2000000 .f32) (x0 : FVec F S150000x64 .f32) : FVec F S150000x64 .f32 :=
  Host.divf (sum3 rowIdx cols vals x0) (broadcastInDim S150000x64 ![] bcast_S_S150000x64 (constant S_ .f32 0x40800000#32))

/-- The batch's user rows and item rows of a mean table. -/
def userRows (ids : IVec S16384 32) (h : FVec F S150000x64 .f32) : FVec F S16384x64 .f32 :=
  Host.gather gather_S100000x64_S16384x1_S16384x64_1_0_n_n_0_1_164
    (extractStridedSlice S100000x64 ![0, 0] h slices_S150000x64_S100000x64_0_0) (batchRows 100000#32 ids)
def itemRows (ids : IVec S16384 32) (h : FVec F S150000x64 .f32) : FVec F S16384x64 .f32 :=
  Host.gather gather_S50000x64_S16384x1_S16384x64_1_0_n_n_0_1_164
    (extractStridedSlice S50000x64 ![100000, 0] h slices_S150000x64_S50000x64_100000_0) (batchRows 50000#32 ids)

/-- The scores as the kernel forms them: lane sums of products stored as a column, the column read flat. -/
def laneScores (hu hi : FVec F S16384x64 .f32) : FVec F S16384 .f32 :=
  shapeCast S16384 (k6_pay1 hu hi) shapeCasts_S16384x1_S16384

/-- The scores as the reference forms them: a host sum over the lanes, from zero, of the products. -/
def hostScores (hu hi : FVec F S16384x64 .f32) : FVec F S16384 .f32 :=
  Host.reduceAdd (mulf hu hi) (constant S_ .f32 0x00000000#32) rowSums scalar_pos

/-- The kernel's result as a function of the seven arguments. -/
def kernelResult (users items : IVec S16384 32) (rowIdx cols : IVec S2000000 32) (vals : FVec F S2000000 .f32)
    (uemb : FVec F S100000x64 .f32) (iemb : FVec F S50000x64 .f32) : FVec F S16384 .f32 :=
  laneScores (userRows users (averaged rowIdx cols vals (table uemb iemb)))
    (itemRows items (averaged rowIdx cols vals (table uemb iemb)))

/-- The reference's result as a function of the seven arguments. -/
def referenceResult (users items : IVec S16384 32) (rowIdx cols : IVec S2000000 32) (vals : FVec F S2000000 .f32)
    (uemb : FVec F S100000x64 .f32) (iemb : FVec F S50000x64 .f32) : FVec F S16384 .f32 :=
  hostScores (userRows users (averaged rowIdx cols vals (table uemb iemb)))
    (itemRows items (averaged rowIdx cols vals (table uemb iemb)))

end Cert.KernelIdeal.Spec

end
-- ==== Proof.Msg0.lean ====
/- The weighted-message region, first layer. Each of its 125 grid points takes 16000 consecutive edges: the
   edge weights as a column [16000, 1] and the gathered rows [16000, 64], and stores weight × row, the weight spread
   over the 64 lanes. Over all points the output array [2000000, 64] ends, at (e, d), at weight e × row (e, d):
   the product of the column broadcast along the lanes with the gathered array. Stated at any contents `V` the
   region is entered from, since the same region is entered from different contents in each layer. -/
import proofs.«159684_j14748917694876_1_alg».proof.Proof.Gen.KernelIdeal.Frame
import proofs.«159684_j14748917694876_1_alg».proof.Proof.Spec
import Idealize.ShloMosaic.Lib.Pipeline.Value
import Idealize.ShloMosaic.Lib.ValueIdx

set_option maxRecDepth 16384

noncomputable section

namespace Cert.KernelIdeal.Msg0

open Cert.KernelIdeal Cert.KernelIdeal.Gen
open Idealize.ShloMosaic Idealize.ShloMosaic.TcCoe Idealize.SL.Sem
open Idealize.ShloMosaic.Pipeline (Dat)
open Idealize.ShloMosaic.ValueIdx
open Cert.KernelIdeal.Spec (spreads)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The array the region leaves: at (e, d) the weight of edge e times the gathered entry (e, d). -/
def weighted (v : FVec F S2000000x1 .f32) (g : FVec F S2000000x64 .f32) : FVec F S2000000x64 .f32 :=
  mulf (broadcastInDim S2000000x64 ![0, 1] spreads v) g

/-- One point's product at (r, d): the block's weight at row r times the block's entry (r, d). -/
theorem product_apply (x0 : Vec F S16000x1 .f32) (x1 : Vec F S16000x64 .f32) (j : S16000x64.Idx) (k : S16000x1.Idx)
    (hk0 : (k 0).val = (j 0).val) (hk1 : (k 1).val = 0) :
    k0_pay1 x0 x1 j = FloatOps.mulf (x0 k) (x1 j) := by
  unfold k0_pay1
  show FloatOps.mulf (broadcastTo S16000x64 (shapeCast S16000x1 x0 shapeCasts_S16000x1_S16000x1) broadcasts_S16000x1_S16000x64 j)
      (shapeCast S16000x64 x1 shapeCasts_S16000x64_S16000x64 j) = _
  rw [shapeCast_self, shapeCast_self]
  congr 1
  refine broadcastTo_apply _ _ j k fun a => ?_
  match a with
  | ⟨0, _⟩ => exact hk0
  | ⟨1, _⟩ => exact hk1

/-- The block index maps over the 125 points: all three windows move together along the edges, one block per
    point, and stay at block 0 along the lanes. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of `weighted` of the two input arrays as the region finds them. -/
theorem written_block (c : Dev nD) (t : Fin cfg0.N) :
    (dat0 V c).flushed 2 t = ((cfg0.win 2).blk t).view.read (Elt F) (weighted (V c main_v8) (V c main_v7)) := by
  show (cfg0.win 2).cut (grid0.coords t) ((dat0 V c).after 2 t) = _
  rw [after0_2]
  unfold out0_2
  rw [View.canon_unit_zero zero_offsets]
  simp only [View.ld_unit_zero (S := S16000x1) zero_offsets, View.ld_unit_zero (S := S16000x64) zero_offsets]
  obtain ⟨e0, e1, e2, e3, e4, e5⟩ := index_facts t
  funext j
  have hk : ∃ k : S16000x1.Idx, (k 0).val = (j 0).val ∧ (k 1).val = 0 := ⟨ix2 (j 0) ⟨0, by decide⟩, rfl, rfl⟩
  obtain ⟨k, hk0, hk1⟩ := hk
  refine (product_apply _ _ j k hk0 hk1).trans ?_
  show FloatOps.mulf (V c main_v8 (((cfg0.win 0).blk t).view.emb k)) (V c main_v7 (((cfg0.win 1).blk t).view.emb j))
      = FloatOps.mulf (broadcastInDim S2000000x64 ![0, 1] spreads (V c main_v8) (((cfg0.win 2).blk t).view.emb j))
          (V c main_v7 (((cfg0.win 2).blk t).view.emb j))
  have h1 : ((cfg0.win 1).blk t).view.emb j = ((cfg0.win 2).blk t).view.emb j := by
    funext a; apply Fin.ext
    match a with
    | ⟨0, _⟩ => show win0_1.index t (0 : Fin 2) * 16000 + 1 * (j 0).val = win0_2.index t (0 : Fin 2) * 16000 + 1 * (j 0).val; omega
    | ⟨1, _⟩ => show win0_1.index t (1 : Fin 2) * 64 + 1 * (j 1).val = win0_2.index t (1 : Fin 2) * 64 + 1 * (j 1).val; omega
  rw [h1]
  congr 1
  refine (broadcastInDim_apply _ spreads _ _ _ fun a => ?_).symm
  match a with
  | ⟨0, _⟩ => show win0_0.index t (0 : Fin 2) * 16000 + 1 * (k 0).val = win0_2.index t (0 : Fin 2) * 16000 + 1 * (j 0).val; omega
  | ⟨1, _⟩ => show win0_0.index t (1 : Fin 2) * 1 + 1 * (k 1).val = 0; omega

/-- An index of the array is in point `t`'s block iff each coordinate is in the block's range on its axis. -/
theorem mem_block (t : Fin cfg0.N) (i : S2000000x64.Idx) :
    i ∈ ((cfg0.win 2).blk t).view.set ↔ ∀ a : Fin 2, win0_2.index t a * S16000x64.size a ≤ (i a).val ∧ (i a).val < win0_2.index t a * S16000x64.size a + S16000x64.size a := by
  show i ∈ ((View.whole main_v9).slice (win0_2.rect t)).set ↔ _
  rw [View.set_slice_whole, Rect.mem_set_unit]
  exact Iff.rfl

/-- Every edge row lies in the block of the point its number divided by 16000 names. -/
theorem covered (i : S2000000x64.Idx) :
    ∃ t : Fin cfg0.N, (cfg0.win 2).flush t = true ∧ i ∈ ((cfg0.win 2).blk t).view.set := by
  have hi0 : (i 0).val < 2000000 := (i 0).isLt
  have hi1 : (i 1).val < 64 := (i 1).isLt
  have hN : cfg0.N = 125 := N_0
  let t : Fin cfg0.N := ⟨(i 0).val / 16000, by rw [hN]; omega⟩
  obtain ⟨e0, e1, e2, e3, e4, e5⟩ := index_facts t
  have e4' : win0_2.index t (0 : Fin 2) = (i 0).val / 16000 := e4
  refine ⟨t, flush0_2 t, ?_⟩
  rw [mem_block]
  intro a
  match a with
  | ⟨0, _⟩ => show win0_2.index t (0 : Fin 2) * 16000 ≤ (i 0).val ∧ (i 0).val < win0_2.index t (0 : Fin 2) * 16000 + 16000; omega
  | ⟨1, _⟩ => show win0_2.index t (1 : Fin 2) * 64 ≤ (i 1).val ∧ (i 1).val < win0_2.index t (1 : Fin 2) * 64 + 64; omega

/-- THE OUTPUT ARRAY at the region's exit: the weights' column spread along the lanes, times the gathered rows. -/
theorem exit_out (c : Dev nD) : (dat0 V c).arrAt 2 cfg0.N = weighted (V c main_v8) (V c main_v7) :=
  (dat0 V c).arrAt_eq_of_cover 2 (weighted (V c main_v8) (V c main_v7)) (fun t _ => written_block V c t) covered

end Cert.KernelIdeal.Msg0

end
-- ==== Proof.Msg2.lean ====
/- The weighted-message region, second layer. Each of its 125 grid points takes 16000 consecutive edges: the
   edge weights as a column [16000, 1] and the gathered rows [16000, 64], and stores weight × row, the weight spread
   over the 64 lanes. Over all points the output array [2000000, 64] ends, at (e, d), at weight e × row (e, d):
   the product of the column broadcast along the lanes with the gathered array. Stated at any contents `V` the
   region is entered from, since the same region is entered from different contents in each layer. -/
import proofs.«159684_j14748917694876_1_alg».proof.Proof.Gen.KernelIdeal.Frame
import proofs.«159684_j14748917694876_1_alg».proof.Proof.Spec
import Idealize.ShloMosaic.Lib.Pipeline.Value
import Idealize.ShloMosaic.Lib.ValueIdx

set_option maxRecDepth 16384

noncomputable section

namespace Cert.KernelIdeal.Msg2

open Cert.KernelIdeal Cert.KernelIdeal.Gen
open Idealize.ShloMosaic Idealize.ShloMosaic.TcCoe Idealize.SL.Sem
open Idealize.ShloMosaic.Pipeline (Dat)
open Idealize.ShloMosaic.ValueIdx
open Cert.KernelIdeal.Spec (spreads)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The array the region leaves: at (e, d) the weight of edge e times the gathered entry (e, d). -/
def weighted (v : FVec F S2000000x1 .f32) (g : FVec F S2000000x64 .f32) : FVec F S2000000x64 .f32 :=
  mulf (broadcastInDim S2000000x64 ![0, 1] spreads v) g

/-- One point's product at (r, d): the block's weight at row r times the block's entry (r, d). -/
theorem product_apply (x0 : Vec F S16000x1 .f32) (x1 : Vec F S16000x64 .f32) (j : S16000x64.Idx) (k : S16000x1.Idx)
    (hk0 : (k 0).val = (j 0).val) (hk1 : (k 1).val = 0) :
    k2_pay1 x0 x1 j = FloatOps.mulf (x0 k) (x1 j) := by
  unfold k2_pay1
  show FloatOps.mulf (broadcastTo S16000x64 (shapeCast S16000x1 x0 shapeCasts_S16000x1_S16000x1) broadcasts_S16000x1_S16000x64 j)
      (shapeCast S16000x64 x1 shapeCasts_S16000x64_S16000x64 j) = _
  rw [shapeCast_self, shapeCast_self]
  congr 1
  refine broadcastTo_apply _ _ j k fun a => ?_
  match a with
  | ⟨0, _⟩ => exact hk0
  | ⟨1, _⟩ => exact hk1

/-- The block index maps over the 125 points: all three windows move together along the edges, one block per
    point, and stay at block 0 along the lanes. -/
theorem index_facts : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (0 : Fin 2) = t.val
    ∧ win2_2.index t (1 : Fin 2) = 0 :=
  (by decide +kernel : ∀ t : Fin grid2.N, _)

/-- WHAT POINT `t` WRITES BACK is block `t` of `weighted` of the two input arrays as the region finds them. -/
theorem written_block (c : Dev nD) (t : Fin cfg2.N) :
    (dat2 V c).flushed 2 t = ((cfg2.win 2).blk t).view.read (Elt F) (weighted (V c main_v21) (V c main_v20)) := by
  show (cfg2.win 2).cut (grid2.coords t) ((dat2 V c).after 2 t) = _
  rw [after2_2]
  unfold out2_2
  rw [View.canon_unit_zero zero_offsets]
  simp only [View.ld_unit_zero (S := S16000x1) zero_offsets, View.ld_unit_zero (S := S16000x64) zero_offsets]
  obtain ⟨e0, e1, e2, e3, e4, e5⟩ := index_facts t
  funext j
  have hk : ∃ k : S16000x1.Idx, (k 0).val = (j 0).val ∧ (k 1).val = 0 := ⟨ix2 (j 0) ⟨0, by decide⟩, rfl, rfl⟩
  obtain ⟨k, hk0, hk1⟩ := hk
  refine (product_apply _ _ j k hk0 hk1).trans ?_
  show FloatOps.mulf (V c main_v21 (((cfg2.win 0).blk t).view.emb k)) (V c main_v20 (((cfg2.win 1).blk t).view.emb j))
      = FloatOps.mulf (broadcastInDim S2000000x64 ![0, 1] spreads (V c main_v21) (((cfg2.win 2).blk t).view.emb j))
          (V c main_v20 (((cfg2.win 2).blk t).view.emb j))
  have h1 : ((cfg2.win 1).blk t).view.emb j = ((cfg2.win 2).blk t).view.emb j := by
    funext a; apply Fin.ext
    match a with
    | ⟨0, _⟩ => show win2_1.index t (0 : Fin 2) * 16000 + 1 * (j 0).val = win2_2.index t (0 : Fin 2) * 16000 + 1 * (j 0).val; omega
    | ⟨1, _⟩ => show win2_1.index t (1 : Fin 2) * 64 + 1 * (j 1).val = win2_2.index t (1 : Fin 2) * 64 + 1 * (j 1).val; omega
  rw [h1]
  congr 1
  refine (broadcastInDim_apply _ spreads _ _ _ fun a => ?_).symm
  match a with
  | ⟨0, _⟩ => show win2_0.index t (0 : Fin 2) * 16000 + 1 * (k 0).val = win2_2.index t (0 : Fin 2) * 16000 + 1 * (j 0).val; omega
  | ⟨1, _⟩ => show win2_0.index t (1 : Fin 2) * 1 + 1 * (k 1).val = 0; omega

/-- An index of the array is in point `t`'s block iff each coordinate is in the block's range on its axis. -/
theorem mem_block (t : Fin cfg2.N) (i : S2000000x64.Idx) :
    i ∈ ((cfg2.win 2).blk t).view.set ↔ ∀ a : Fin 2, win2_2.index t a * S16000x64.size a ≤ (i a).val ∧ (i a).val < win2_2.index t a * S16000x64.size a + S16000x64.size a := by
  show i ∈ ((View.whole main_v22).slice (win2_2.rect t)).set ↔ _
  rw [View.set_slice_whole, Rect.mem_set_unit]
  exact Iff.rfl

/-- Every edge row lies in the block of the point its number divided by 16000 names. -/
theorem covered (i : S2000000x64.Idx) :
    ∃ t : Fin cfg2.N, (cfg2.win 2).flush t = true ∧ i ∈ ((cfg2.win 2).blk t).view.set := by
  have hi0 : (i 0).val < 2000000 := (i 0).isLt
  have hi1 : (i 1).val < 64 := (i 1).isLt
  have hN : cfg2.N = 125 := N_2
  let t : Fin cfg2.N := ⟨(i 0).val / 16000, by rw [hN]; omega⟩
  obtain ⟨e0, e1, e2, e3, e4, e5⟩ := index_facts t
  have e4' : win2_2.index t (0 : Fin 2) = (i 0).val / 16000 := e4
  refine ⟨t, flush2_2 t, ?_⟩
  rw [mem_block]
  intro a
  match a with
  | ⟨0, _⟩ => show win2_2.index t (0 : Fin 2) * 16000 ≤ (i 0).val ∧ (i 0).val < win2_2.index t (0 : Fin 2) * 16000 + 16000; omega
  | ⟨1, _⟩ => show win2_2.index t (1 : Fin 2) * 64 ≤ (i 1).val ∧ (i 1).val < win2_2.index t (1 : Fin 2) * 64 + 64; omega

/-- THE OUTPUT ARRAY at the region's exit: the weights' column spread along the lanes, times the gathered rows. -/
theorem exit_out (c : Dev nD) : (dat2 V c).arrAt 2 cfg2.N = weighted (V c main_v21) (V c main_v20) :=
  (dat2 V c).arrAt_eq_of_cover 2 (weighted (V c main_v21) (V c main_v20)) (fun t _ => written_block V c t) covered

end Cert.KernelIdeal.Msg2

end
-- ==== Proof.Msg4.lean ====
/- The weighted-message region, third layer. Each of its 125 grid points takes 16000 consecutive edges: the
   edge weights as a column [16000, 1] and the gathered rows [16000, 64], and stores weight × row, the weight spread
   over the 64 lanes. Over all points the output array [2000000, 64] ends, at (e, d), at weight e × row (e, d):
   the product of the column broadcast along the lanes with the gathered array. Stated at any contents `V` the
   region is entered from, since the same region is entered from different contents in each layer. -/
import proofs.«159684_j14748917694876_1_alg».proof.Proof.Gen.KernelIdeal.Frame
import proofs.«159684_j14748917694876_1_alg».proof.Proof.Spec
import Idealize.ShloMosaic.Lib.Pipeline.Value
import Idealize.ShloMosaic.Lib.ValueIdx

set_option maxRecDepth 16384

noncomputable section

namespace Cert.KernelIdeal.Msg4

open Cert.KernelIdeal Cert.KernelIdeal.Gen
open Idealize.ShloMosaic Idealize.ShloMosaic.TcCoe Idealize.SL.Sem
open Idealize.ShloMosaic.Pipeline (Dat)
open Idealize.ShloMosaic.ValueIdx
open Cert.KernelIdeal.Spec (spreads)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The array the region leaves: at (e, d) the weight of edge e times the gathered entry (e, d). -/
def weighted (v : FVec F S2000000x1 .f32) (g : FVec F S2000000x64 .f32) : FVec F S2000000x64 .f32 :=
  mulf (broadcastInDim S2000000x64 ![0, 1] spreads v) g

/-- One point's product at (r, d): the block's weight at row r times the block's entry (r, d). -/
theorem product_apply (x0 : Vec F S16000x1 .f32) (x1 : Vec F S16000x64 .f32) (j : S16000x64.Idx) (k : S16000x1.Idx)
    (hk0 : (k 0).val = (j 0).val) (hk1 : (k 1).val = 0) :
    k4_pay1 x0 x1 j = FloatOps.mulf (x0 k) (x1 j) := by
  unfold k4_pay1
  show FloatOps.mulf (broadcastTo S16000x64 (shapeCast S16000x1 x0 shapeCasts_S16000x1_S16000x1) broadcasts_S16000x1_S16000x64 j)
      (shapeCast S16000x64 x1 shapeCasts_S16000x64_S16000x64 j) = _
  rw [shapeCast_self, shapeCast_self]
  congr 1
  refine broadcastTo_apply _ _ j k fun a => ?_
  match a with
  | ⟨0, _⟩ => exact hk0
  | ⟨1, _⟩ => exact hk1

/-- The block index maps over the 125 points: all three windows move together along the edges, one block per
    point, and stay at block 0 along the lanes. -/
theorem index_facts : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (0 : Fin 2) = t.val
    ∧ win4_2.index t (1 : Fin 2) = 0 :=
  (by decide +kernel : ∀ t : Fin grid4.N, _)

/-- WHAT POINT `t` WRITES BACK is block `t` of `weighted` of the two input arrays as the region finds them. -/
theorem written_block (c : Dev nD) (t : Fin cfg4.N) :
    (dat4 V c).flushed 2 t = ((cfg4.win 2).blk t).view.read (Elt F) (weighted (V c main_v34) (V c main_v33)) := by
  show (cfg4.win 2).cut (grid4.coords t) ((dat4 V c).after 2 t) = _
  rw [after4_2]
  unfold out4_2
  rw [View.canon_unit_zero zero_offsets]
  simp only [View.ld_unit_zero (S := S16000x1) zero_offsets, View.ld_unit_zero (S := S16000x64) zero_offsets]
  obtain ⟨e0, e1, e2, e3, e4, e5⟩ := index_facts t
  funext j
  have hk : ∃ k : S16000x1.Idx, (k 0).val = (j 0).val ∧ (k 1).val = 0 := ⟨ix2 (j 0) ⟨0, by decide⟩, rfl, rfl⟩
  obtain ⟨k, hk0, hk1⟩ := hk
  refine (product_apply _ _ j k hk0 hk1).trans ?_
  show FloatOps.mulf (V c main_v34 (((cfg4.win 0).blk t).view.emb k)) (V c main_v33 (((cfg4.win 1).blk t).view.emb j))
      = FloatOps.mulf (broadcastInDim S2000000x64 ![0, 1] spreads (V c main_v34) (((cfg4.win 2).blk t).view.emb j))
          (V c main_v33 (((cfg4.win 2).blk t).view.emb j))
  have h1 : ((cfg4.win 1).blk t).view.emb j = ((cfg4.win 2).blk t).view.emb j := by
    funext a; apply Fin.ext
    match a with
    | ⟨0, _⟩ => show win4_1.index t (0 : Fin 2) * 16000 + 1 * (j 0).val = win4_2.index t (0 : Fin 2) * 16000 + 1 * (j 0).val; omega
    | ⟨1, _⟩ => show win4_1.index t (1 : Fin 2) * 64 + 1 * (j 1).val = win4_2.index t (1 : Fin 2) * 64 + 1 * (j 1).val; omega
  rw [h1]
  congr 1
  refine (broadcastInDim_apply _ spreads _ _ _ fun a => ?_).symm
  match a with
  | ⟨0, _⟩ => show win4_0.index t (0 : Fin 2) * 16000 + 1 * (k 0).val = win4_2.index t (0 : Fin 2) * 16000 + 1 * (j 0).val; omega
  | ⟨1, _⟩ => show win4_0.index t (1 : Fin 2) * 1 + 1 * (k 1).val = 0; omega

/-- An index of the array is in point `t`'s block iff each coordinate is in the block's range on its axis. -/
theorem mem_block (t : Fin cfg4.N) (i : S2000000x64.Idx) :
    i ∈ ((cfg4.win 2).blk t).view.set ↔ ∀ a : Fin 2, win4_2.index t a * S16000x64.size a ≤ (i a).val ∧ (i a).val < win4_2.index t a * S16000x64.size a + S16000x64.size a := by
  show i ∈ ((View.whole main_v35).slice (win4_2.rect t)).set ↔ _
  rw [View.set_slice_whole, Rect.mem_set_unit]
  exact Iff.rfl

/-- Every edge row lies in the block of the point its number divided by 16000 names. -/
theorem covered (i : S2000000x64.Idx) :
    ∃ t : Fin cfg4.N, (cfg4.win 2).flush t = true ∧ i ∈ ((cfg4.win 2).blk t).view.set := by
  have hi0 : (i 0).val < 2000000 := (i 0).isLt
  have hi1 : (i 1).val < 64 := (i 1).isLt
  have hN : cfg4.N = 125 := N_4
  let t : Fin cfg4.N := ⟨(i 0).val / 16000, by rw [hN]; omega⟩
  obtain ⟨e0, e1, e2, e3, e4, e5⟩ := index_facts t
  have e4' : win4_2.index t (0 : Fin 2) = (i 0).val / 16000 := e4
  refine ⟨t, flush4_2 t, ?_⟩
  rw [mem_block]
  intro a
  match a with
  | ⟨0, _⟩ => show win4_2.index t (0 : Fin 2) * 16000 ≤ (i 0).val ∧ (i 0).val < win4_2.index t (0 : Fin 2) * 16000 + 16000; omega
  | ⟨1, _⟩ => show win4_2.index t (1 : Fin 2) * 64 ≤ (i 1).val ∧ (i 1).val < win4_2.index t (1 : Fin 2) * 64 + 64; omega

/-- THE OUTPUT ARRAY at the region's exit: the weights' column spread along the lanes, times the gathered rows. -/
theorem exit_out (c : Dev nD) : (dat4 V c).arrAt 2 cfg4.N = weighted (V c main_v34) (V c main_v33) :=
  (dat4 V c).arrAt_eq_of_cover 2 (weighted (V c main_v34) (V c main_v33)) (fun t _ => written_block V c t) covered

end Cert.KernelIdeal.Msg4

end
-- ==== Proof.Acc1.lean ====
/- The accumulate region, first layer. Each of its 150 grid points takes 1000 consecutive node rows of the running
   sum and of the layer's new embeddings, both [1000, 64], and stores their sum. Over all points the output array
   [150000, 64] ends at the sum of the two input arrays, entry by entry. Stated at any contents `V` the region is
   entered from. -/
import proofs.«159684_j14748917694876_1_alg».proof.Proof.Gen.KernelIdeal.Frame
import Idealize.ShloMosaic.Lib.Pipeline.Value
import Idealize.ShloMosaic.Lib.ValueIdx

set_option maxRecDepth 16384

noncomputable section

namespace Cert.KernelIdeal.Acc1

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- One point's sum: the two blocks added, entry by entry. -/
theorem sum_eq (x0 x1 : Vec F S1000x64 .f32) : k1_pay1 x0 x1 = addf x0 x1 := by
  unfold k1_pay1
  show addf (shapeCast S1000x64 x0 shapeCasts_S1000x64_S1000x64) (shapeCast S1000x64 x1 shapeCasts_S1000x64_S1000x64) = _
  rw [shapeCast_self, shapeCast_self]

/-- The block index maps over the 150 points: all three windows move together along the node rows, one block per
    point, and stay at block 0 along the lanes. -/
theorem index_facts : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- WHAT POINT `t` WRITES BACK is block `t` of the sum of the two input arrays as the region finds them. -/
theorem written_block (c : Dev nD) (t : Fin cfg1.N) :
    (dat1 V c).flushed 2 t = ((cfg1.win 2).blk t).view.read (Elt F) (addf (V c main_v0) (V c main_v12)) := by
  show (cfg1.win 2).cut (grid1.coords t) ((dat1 V c).after 2 t) = _
  rw [after1_2]
  unfold out1_2
  rw [View.canon_unit_zero zero_offsets]
  simp only [View.ld_unit_zero (S := S1000x64) zero_offsets]
  rw [sum_eq]
  obtain ⟨e0, e1, e2, e3, e4, e5⟩ := index_facts t
  funext j
  show FloatOps.addf (V c main_v0 (((cfg1.win 0).blk t).view.emb j)) (V c main_v12 (((cfg1.win 1).blk t).view.emb j))
      = FloatOps.addf (V c main_v0 (((cfg1.win 2).blk t).view.emb j)) (V c main_v12 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 1000 + 1 * (j 0).val = win1_2.index t (0 : Fin 2) * 1000 + 1 * (j 0).val; omega
    | ⟨1, _⟩ => show win1_1.index t (1 : Fin 2) * 64 + 1 * (j 1).val = win1_2.index t (1 : Fin 2) * 64 + 1 * (j 1).val; omega
  rw [h0, h1]

/-- An index of the array is in point `t`'s block iff each coordinate is in the block's range on its axis. -/
theorem mem_block (t : Fin cfg1.N) (i : S150000x64.Idx) :
    i ∈ ((cfg1.win 2).blk t).view.set ↔ ∀ a : Fin 2, win1_2.index t a * S1000x64.size a ≤ (i a).val ∧ (i a).val < win1_2.index t a * S1000x64.size a + S1000x64.size a := by
  show i ∈ ((View.whole main_v13).slice (win1_2.rect t)).set ↔ _
  rw [View.set_slice_whole, Rect.mem_set_unit]
  exact Iff.rfl

/-- Every node row lies in the block of the point its number divided by 1000 names. -/
theorem covered (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  have hN : cfg1.N = 150 := N_1
  let t : Fin cfg1.N := ⟨(i 0).val / 1000, by rw [hN]; omega⟩
  obtain ⟨e0, e1, e2, e3, e4, e5⟩ := index_facts t
  have e4' : win1_2.index t (0 : Fin 2) = (i 0).val / 1000 := e4
  refine ⟨t, flush1_2 t, ?_⟩
  rw [mem_block]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 64 ≤ (i 1).val ∧ (i 1).val < win1_2.index t (1 : Fin 2) * 64 + 64; omega

/-- THE OUTPUT ARRAY at the region's exit: the running sum plus the layer's new embeddings. -/
theorem exit_out (c : Dev nD) : (dat1 V c).arrAt 2 cfg1.N = addf (V c main_v0) (V c main_v12) :=
  (dat1 V c).arrAt_eq_of_cover 2 (addf (V c main_v0) (V c main_v12)) (fun t _ => written_block V c t) covered

end Cert.KernelIdeal.Acc1

end
-- ==== Proof.Acc3.lean ====
/- The accumulate region, second layer. Each of its 150 grid points takes 1000 consecutive node rows of the running
   sum and of the layer's new embeddings, both [1000, 64], and stores their sum. Over all points the output array
   [150000, 64] ends at the sum of the two input arrays, entry by entry. Stated at any contents `V` the region is
   entered from. -/
import proofs.«159684_j14748917694876_1_alg».proof.Proof.Gen.KernelIdeal.Frame
import Idealize.ShloMosaic.Lib.Pipeline.Value
import Idealize.ShloMosaic.Lib.ValueIdx

set_option maxRecDepth 16384

noncomputable section

namespace Cert.KernelIdeal.Acc3

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- One point's sum: the two blocks added, entry by entry. -/
theorem sum_eq (x0 x1 : Vec F S1000x64 .f32) : k3_pay1 x0 x1 = addf x0 x1 := by
  unfold k3_pay1
  show addf (shapeCast S1000x64 x0 shapeCasts_S1000x64_S1000x64) (shapeCast S1000x64 x1 shapeCasts_S1000x64_S1000x64) = _
  rw [shapeCast_self, shapeCast_self]

/-- The block index maps over the 150 points: all three windows move together along the node rows, one block per
    point, and stay at block 0 along the lanes. -/
theorem index_facts : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- WHAT POINT `t` WRITES BACK is block `t` of the sum of the two input arrays as the region finds them. -/
theorem written_block (c : Dev nD) (t : Fin cfg3.N) :
    (dat3 V c).flushed 2 t = ((cfg3.win 2).blk t).view.read (Elt F) (addf (V c main_v13) (V c main_v25)) := by
  show (cfg3.win 2).cut (grid3.coords t) ((dat3 V c).after 2 t) = _
  rw [after3_2]
  unfold out3_2
  rw [View.canon_unit_zero zero_offsets]
  simp only [View.ld_unit_zero (S := S1000x64) zero_offsets]
  rw [sum_eq]
  obtain ⟨e0, e1, e2, e3, e4, e5⟩ := index_facts t
  funext j
  show FloatOps.addf (V c main_v13 (((cfg3.win 0).blk t).view.emb j)) (V c main_v25 (((cfg3.win 1).blk t).view.emb j))
      = FloatOps.addf (V c main_v13 (((cfg3.win 2).blk t).view.emb j)) (V c main_v25 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 1000 + 1 * (j 0).val = win3_2.index t (0 : Fin 2) * 1000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 1000 + 1 * (j 0).val = win3_2.index t (0 : Fin 2) * 1000 + 1 * (j 0).val; omega
    | ⟨1, _⟩ => show win3_1.index t (1 : Fin 2) * 64 + 1 * (j 1).val = win3_2.index t (1 : Fin 2) * 64 + 1 * (j 1).val; omega
  rw [h0, h1]

/-- An index of the array is in point `t`'s block iff each coordinate is in the block's range on its axis. -/
theorem mem_block (t : Fin cfg3.N) (i : S150000x64.Idx) :
    i ∈ ((cfg3.win 2).blk t).view.set ↔ ∀ a : Fin 2, win3_2.index t a * S1000x64.size a ≤ (i a).val ∧ (i a).val < win3_2.index t a * S1000x64.size a + S1000x64.size a := by
  show i ∈ ((View.whole main_v26).slice (win3_2.rect t)).set ↔ _
  rw [View.set_slice_whole, Rect.mem_set_unit]
  exact Iff.rfl

/-- Every node row lies in the block of the point its number divided by 1000 names. -/
theorem covered (i : S150000x64.Idx) :
    ∃ t : Fin cfg3.N, (cfg3.win 2).flush t = true ∧ i ∈ ((cfg3.win 2).blk t).view.set := by
  have hi0 : (i 0).val < 150000 := (i 0).isLt
  have hi1 : (i 1).val < 64 := (i 1).isLt
  have hN : cfg3.N = 150 := N_3
  let t : Fin cfg3.N := ⟨(i 0).val / 1000, by rw [hN]; omega⟩
  obtain ⟨e0, e1, e2, e3, e4, e5⟩ := index_facts t
  have e4' : win3_2.index t (0 : Fin 2) = (i 0).val / 1000 := e4
  refine ⟨t, flush3_2 t, ?_⟩
  rw [mem_block]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 64 ≤ (i 1).val ∧ (i 1).val < win3_2.index t (1 : Fin 2) * 64 + 64; omega

/-- THE OUTPUT ARRAY at the region's exit: the running sum plus the layer's new embeddings. -/
theorem exit_out (c : Dev nD) : (dat3 V c).arrAt 2 cfg3.N = addf (V c main_v13) (V c main_v25) :=
  (dat3 V c).arrAt_eq_of_cover 2 (addf (V c main_v13) (V c main_v25)) (fun t _ => written_block V c t) covered

end Cert.KernelIdeal.Acc3

end
-- ==== Proof.Acc5.lean ====
/- The accumulate region, third layer. Each of its 150 grid points takes 1000 consecutive node rows of the running
   sum and of the layer's new embeddings, both [1000, 64], and stores their sum. Over all points the output array
   [150000, 64] ends at the sum of the two input arrays, entry by entry. Stated at any contents `V` the region is
   entered from. -/
import proofs.«159684_j14748917694876_1_alg».proof.Proof.Gen.KernelIdeal.Frame
import Idealize.ShloMosaic.Lib.Pipeline.Value
import Idealize.ShloMosaic.Lib.ValueIdx

set_option maxRecDepth 16384

noncomputable section

namespace Cert.KernelIdeal.Acc5

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- One point's sum: the two blocks added, entry by entry. -/
theorem sum_eq (x0 x1 : Vec F S1000x64 .f32) : k5_pay1 x0 x1 = addf x0 x1 := by
  unfold k5_pay1
  show addf (shapeCast S1000x64 x0 shapeCasts_S1000x64_S1000x64) (shapeCast S1000x64 x1 shapeCasts_S1000x64_S1000x64) = _
  rw [shapeCast_self, shapeCast_self]

/-- The block index maps over the 150 points: all three windows move together along the node rows, one block per
    point, and stay at block 0 along the lanes. -/
theorem index_facts : ∀ t : Fin cfg5.N, win5_0.index t (0 : Fin 2) = win5_2.index t (0 : Fin 2)
    ∧ win5_0.index t (1 : Fin 2) = 0
    ∧ win5_1.index t (0 : Fin 2) = win5_2.index t (0 : Fin 2)
    ∧ win5_1.index t (1 : Fin 2) = 0
    ∧ win5_2.index t (0 : Fin 2) = t.val
    ∧ win5_2.index t (1 : Fin 2) = 0 :=
  (by decide +kernel : ∀ t : Fin grid5.N, _)

/-- WHAT POINT `t` WRITES BACK is block `t` of the sum of the two input arrays as the region finds them. -/
theorem written_block (c : Dev nD) (t : Fin cfg5.N) :
    (dat5 V c).flushed 2 t = ((cfg5.win 2).blk t).view.read (Elt F) (addf (V c main_v26) (V c main_v38)) := by
  show (cfg5.win 2).cut (grid5.coords t) ((dat5 V c).after 2 t) = _
  rw [after5_2]
  unfold out5_2
  rw [View.canon_unit_zero zero_offsets]
  simp only [View.ld_unit_zero (S := S1000x64) zero_offsets]
  rw [sum_eq]
  obtain ⟨e0, e1, e2, e3, e4, e5⟩ := index_facts t
  funext j
  show FloatOps.addf (V c main_v26 (((cfg5.win 0).blk t).view.emb j)) (V c main_v38 (((cfg5.win 1).blk t).view.emb j))
      = FloatOps.addf (V c main_v26 (((cfg5.win 2).blk t).view.emb j)) (V c main_v38 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 1000 + 1 * (j 0).val = win5_2.index t (0 : Fin 2) * 1000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 1000 + 1 * (j 0).val = win5_2.index t (0 : Fin 2) * 1000 + 1 * (j 0).val; omega
    | ⟨1, _⟩ => show win5_1.index t (1 : Fin 2) * 64 + 1 * (j 1).val = win5_2.index t (1 : Fin 2) * 64 + 1 * (j 1).val; omega
  rw [h0, h1]

/-- An index of the array is in point `t`'s block iff each coordinate is in the block's range on its axis. -/
theorem mem_block (t : Fin cfg5.N) (i : S150000x64.Idx) :
    i ∈ ((cfg5.win 2).blk t).view.set ↔ ∀ a : Fin 2, win5_2.index t a * S1000x64.size a ≤ (i a).val ∧ (i a).val < win5_2.index t a * S1000x64.size a + S1000x64.size a := by
  show i ∈ ((View.whole main_v39).slice (win5_2.rect t)).set ↔ _
  rw [View.set_slice_whole, Rect.mem_set_unit]
  exact Iff.rfl

/-- Every node row lies in the block of the point its number divided by 1000 names. -/
theorem covered (i : S150000x64.Idx) :
    ∃ t : Fin cfg5.N, (cfg5.win 2).flush t = true ∧ i ∈ ((cfg5.win 2).blk t).view.set := by
  have hi0 : (i 0).val < 150000 := (i 0).isLt
  have hi1 : (i 1).val < 64 := (i 1).isLt
  have hN : cfg5.N = 150 := N_5
  let t : Fin cfg5.N := ⟨(i 0).val / 1000, by rw [hN]; omega⟩
  obtain ⟨e0, e1, e2, e3, e4, e5⟩ := index_facts t
  have e4' : win5_2.index t (0 : Fin 2) = (i 0).val / 1000 := e4
  refine ⟨t, flush5_2 t, ?_⟩
  rw [mem_block]
  intro a
  match a with
  | ⟨0, _⟩ => show win5_2.index t (0 : Fin 2) * 1000 ≤ (i 0).val ∧ (i 0).val < win5_2.index t (0 : Fin 2) * 1000 + 1000; omega
  | ⟨1, _⟩ => show win5_2.index t (1 : Fin 2) * 64 ≤ (i 1).val ∧ (i 1).val < win5_2.index t (1 : Fin 2) * 64 + 64; omega

/-- THE OUTPUT ARRAY at the region's exit: the running sum plus the layer's new embeddings. -/
theorem exit_out (c : Dev nD) : (dat5 V c).arrAt 2 cfg5.N = addf (V c main_v26) (V c main_v38) :=
  (dat5 V c).arrAt_eq_of_cover 2 (addf (V c main_v26) (V c main_v38)) (fun t _ => written_block V c t) covered

end Cert.KernelIdeal.Acc5

end
-- ==== Proof.Score6.lean ====
/- The score region. Its one grid point takes the two gathered arrays whole, both [16384, 64], multiplies them entry
   by entry, sums each row over its 64 lanes and stores the sums as a column [16384, 1]. The output array ends at
   that column of row sums of products. Stated at any contents `V` the region is entered from. -/
import proofs.«159684_j14748917694876_1_alg».proof.Proof.Gen.KernelIdeal.Frame
import Idealize.ShloMosaic.Lib.Pipeline.Value
import Idealize.ShloMosaic.Lib.ValueIdx

set_option maxRecDepth 16384

noncomputable section

namespace Cert.KernelIdeal.Score6

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The block index maps at the one point: every window sits at block (0, 0). -/
theorem index_facts : ∀ t : Fin cfg6.N, win6_0.index t (0 : Fin 2) = 0
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0 :=
  (by decide +kernel : ∀ t : Fin grid6.N, _)

/-- The first window's block at the one point is the user-side array, whole. -/
theorem block_users (c : Dev nD) (t : Fin cfg6.N) : (iblk6 V c 0 t : Vec F S16384x64 .f32) = V c main_v50 := by
  obtain ⟨e0, e1, e2, e3, e4, e5⟩ := index_facts t
  funext y
  show V c main_v50 (((cfg6.win 0).blk t).view.emb y) = V c main_v50 y
  congr 1
  funext a; apply Fin.ext
  match a with
  | ⟨0, _⟩ => show win6_0.index t (0 : Fin 2) * 16384 + 1 * (y 0).val = (y 0).val; omega
  | ⟨1, _⟩ => show win6_0.index t (1 : Fin 2) * 64 + 1 * (y 1).val = (y 1).val; omega

/-- The second window's block at the one point is the item-side array, whole. -/
theorem block_items (c : Dev nD) (t : Fin cfg6.N) : (iblk6 V c 1 t : Vec F S16384x64 .f32) = V c main_v57 := by
  obtain ⟨e0, e1, e2, e3, e4, e5⟩ := index_facts t
  funext y
  show V c main_v57 (((cfg6.win 1).blk t).view.emb y) = V c main_v57 y
  congr 1
  funext a; apply Fin.ext
  match a with
  | ⟨0, _⟩ => show win6_1.index t (0 : Fin 2) * 16384 + 1 * (y 0).val = (y 0).val; omega
  | ⟨1, _⟩ => show win6_1.index t (1 : Fin 2) * 64 + 1 * (y 1).val = (y 1).val; omega

/-- WHAT THE POINT WRITES BACK is the column of row sums of products of the two arrays, through the one block. -/
theorem written_block (c : Dev nD) (t : Fin cfg6.N) :
    (dat6 V c).flushed 2 t = ((cfg6.win 2).blk t).view.read (Elt F) (k6_pay1 (V c main_v50) (V c main_v57)) := by
  show (cfg6.win 2).cut (grid6.coords t) ((dat6 V c).after 2 t) = _
  rw [after6_2]
  unfold out6_2
  rw [View.canon_unit_zero zero_offsets]
  simp only [View.ld_unit_zero (S := S16384x64) zero_offsets]
  rw [block_users V c t, block_items V c t]
  obtain ⟨e0, e1, e2, e3, e4, e5⟩ := index_facts t
  funext j
  show k6_pay1 (V c main_v50) (V c main_v57) j = k6_pay1 (V c main_v50) (V c main_v57) (((cfg6.win 2).blk t).view.emb j)
  congr 1
  funext a; apply Fin.ext
  match a with
  | ⟨0, _⟩ => show (j 0).val = win6_2.index t (0 : Fin 2) * 16384 + 1 * (j 0).val; omega
  | ⟨1, _⟩ => show (j 1).val = win6_2.index t (1 : Fin 2) * 1 + 1 * (j 1).val; omega

/-- An index of the array is in the point's block iff each coordinate is in the block's range on its axis. -/
theorem mem_block (t : Fin cfg6.N) (i : S16384x1.Idx) :
    i ∈ ((cfg6.win 2).blk t).view.set ↔ ∀ a : Fin 2, win6_2.index t a * S16384x1.size a ≤ (i a).val ∧ (i a).val < win6_2.index t a * S16384x1.size a + S16384x1.size a := by
  show i ∈ ((View.whole main_v58).slice (win6_2.rect t)).set ↔ _
  rw [View.set_slice_whole, Rect.mem_set_unit]
  exact Iff.rfl

/-- The one block is the whole column. -/
theorem covered (i : S16384x1.Idx) :
    ∃ t : Fin cfg6.N, (cfg6.win 2).flush t = true ∧ i ∈ ((cfg6.win 2).blk t).view.set := by
  have hi0 : (i 0).val < 16384 := (i 0).isLt
  have hi1 : (i 1).val < 1 := (i 1).isLt
  obtain ⟨e0, e1, e2, e3, e4, e5⟩ := index_facts t6_0
  refine ⟨t6_0, flush6_2 t6_0, ?_⟩
  rw [mem_block]
  intro a
  match a with
  | ⟨0, _⟩ => show win6_2.index t6_0 (0 : Fin 2) * 16384 ≤ (i 0).val ∧ (i 0).val < win6_2.index t6_0 (0 : Fin 2) * 16384 + 16384; omega
  | ⟨1, _⟩ => show win6_2.index t6_0 (1 : Fin 2) * 1 ≤ (i 1).val ∧ (i 1).val < win6_2.index t6_0 (1 : Fin 2) * 1 + 1; omega

/-- THE OUTPUT ARRAY at the region's exit: the column of row sums of products. -/
theorem exit_out (c : Dev nD) : (dat6 V c).arrAt 2 cfg6.N = k6_pay1 (V c main_v50) (V c main_v57) :=
  (dat6 V c).arrAt_eq_of_cover 2 (k6_pay1 (V c main_v50) (V c main_v57)) (fun t _ => written_block V c t) covered

end Cert.KernelIdeal.Score6

end
-- ==== Proof.Keeps.lean ====
/- What each of the kernel program's first six host stretches writes, and so what it keeps: a buffer that is not among
   a stretch's results has, after the stretch, the contents it had before. -/
import proofs.«159684_j14748917694876_1_alg».proof.Proof.Gen.KernelIdeal.Frame
import Idealize.ShloMosaic.Lib.StableHlo.Run

set_option maxRecDepth 16384

noncomputable section

namespace Cert.KernelIdeal.Keeps

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers host stretch 0 writes. -/
abbrev wr0 : List (Ref sig .tc) := [main_v0, main_c, main_v1, main_v2, main_c_0, main_v3, main_v4, main_v5, main_v6, main_v7, main_v8]
theorem writes0 : (hostOps0 : List (HloOp τ sig (Elt F))).Forall fun op => op.writes ⊆ (wr0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 0 does not write keeps its contents across it. -/
theorem keep0 (c : Dev nD) (r : Ref sig .tc) (h : r ∉ wr0) :
    W1 m ρ c (Proc.devRef .tc r) = W0 m ρ c (Proc.devRef .tc r) :=
  StableHlo.after_of_writes_sub hostOps0 _ writes0 h

/-- The buffers host stretch 1 writes. -/
abbrev wr1 : List (Ref sig .tc) := [main_cst, main_v10, main_v11, main_v12]
theorem writes1 : (hostOps1 : List (HloOp τ sig (Elt F))).Forall fun op => op.writes ⊆ (wr1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 1 does not write keeps its contents across it. -/
theorem keep1 (c : Dev nD) (r : Ref sig .tc) (h : r ∉ wr1) :
    W3 m ρ c (Proc.devRef .tc r) = W2 m ρ c (Proc.devRef .tc r) :=
  StableHlo.after_of_writes_sub hostOps1 _ writes1 h

/-- The buffers host stretch 2 writes. -/
abbrev wr2 : List (Ref sig .tc) := [main_c_1, main_v14, main_v15, main_c_2, main_v16, main_v17, main_v18, main_v19, main_v20, main_v21]
theorem writes2 : (hostOps2 : List (HloOp τ sig (Elt F))).Forall fun op => op.writes ⊆ (wr2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 2 does not write keeps its contents across it. -/
theorem keep2 (c : Dev nD) (r : Ref sig .tc) (h : r ∉ wr2) :
    W5 m ρ c (Proc.devRef .tc r) = W4 m ρ c (Proc.devRef .tc r) :=
  StableHlo.after_of_writes_sub hostOps2 _ writes2 h

/-- The buffers host stretch 3 writes. -/
abbrev wr3 : List (Ref sig .tc) := [main_cst_3, main_v23, main_v24, main_v25]
theorem writes3 : (hostOps3 : List (HloOp τ sig (Elt F))).Forall fun op => op.writes ⊆ (wr3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 3 does not write keeps its contents across it. -/
theorem keep3 (c : Dev nD) (r : Ref sig .tc) (h : r ∉ wr3) :
    W7 m ρ c (Proc.devRef .tc r) = W6 m ρ c (Proc.devRef .tc r) :=
  StableHlo.after_of_writes_sub hostOps3 _ writes3 h

/-- The buffers host stretch 4 writes. -/
abbrev wr4 : List (Ref sig .tc) := [main_c_4, main_v27, main_v28, main_c_5, main_v29, main_v30, main_v31, main_v32, main_v33, main_v34]
theorem writes4 : (hostOps4 : List (HloOp τ sig (Elt F))).Forall fun op => op.writes ⊆ (wr4.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 4 does not write keeps its contents across it. -/
theorem keep4 (c : Dev nD) (r : Ref sig .tc) (h : r ∉ wr4) :
    W9 m ρ c (Proc.devRef .tc r) = W8 m ρ c (Proc.devRef .tc r) :=
  StableHlo.after_of_writes_sub hostOps4 _ writes4 h

/-- The buffers host stretch 5 writes. -/
abbrev wr5 : List (Ref sig .tc) := [main_cst_6, main_v36, main_v37, main_v38]
theorem writes5 : (hostOps5 : List (HloOp τ sig (Elt F))).Forall fun op => op.writes ⊆ (wr5.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 5 does not write keeps its contents across it. -/
theorem keep5 (c : Dev nD) (r : Ref sig .tc) (h : r ∉ wr5) :
    W11 m ρ c (Proc.devRef .tc r) = W10 m ρ c (Proc.devRef .tc r) :=
  StableHlo.after_of_writes_sub hostOps5 _ writes5 h

end Cert.KernelIdeal.Keeps

end
-- ==== Proof.Walk.lean ====
/- The kernel's result read back through its run. The run's buffer contents at the fifteen boundaries between its
   eight host stretches and seven regions are a fold from the launch memory. Here every buffer a later item reads is
   followed from the boundary where it is made to the boundary where it is read: a host stretch writes its results
   as the host functions of what it reads and leaves every other buffer alone (the table of what each stretch
   writes is its own module); a region leaves its output array at
   the whole-array function its blocks tile and every other buffer, its own inputs included, alone. At the last
   boundary the result buffer holds the specification's `kernelResult` of the seven argument arrays. -/
import proofs.«159684_j14748917694876_1_alg».proof.Proof.Gen.KernelIdeal.Frame
import proofs.«159684_j14748917694876_1_alg».proof.Proof.Spec
import proofs.«159684_j14748917694876_1_alg».proof.Proof.Msg0
import proofs.«159684_j14748917694876_1_alg».proof.Proof.Msg2
import proofs.«159684_j14748917694876_1_alg».proof.Proof.Msg4
import proofs.«159684_j14748917694876_1_alg».proof.Proof.Acc1
import proofs.«159684_j14748917694876_1_alg».proof.Proof.Acc3
import proofs.«159684_j14748917694876_1_alg».proof.Proof.Acc5
import proofs.«159684_j14748917694876_1_alg».proof.Proof.Score6
import proofs.«159684_j14748917694876_1_alg».proof.Proof.ResultRun
import proofs.«159684_j14748917694876_1_alg».proof.Proof.Keeps
import Idealize.ShloMosaic.Lib.StableHlo.Run
import Idealize.ShloMosaic.Lib.Pipeline.Value
import Idealize.ShloMosaic.Lib.ValueIdx

set_option maxRecDepth 16384

noncomputable section

namespace Cert.KernelIdeal.Walk

open Cert.KernelIdeal Cert.KernelIdeal.Gen Cert.KernelIdeal.Spec Cert.KernelIdeal.Keeps
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## The argument arrays as launched -/

abbrev users (c : Dev nD) : IVec S16384 32 := m ((c : Thread nD τ).loc main_arg0)
abbrev items (c : Dev nD) : IVec S16384 32 := m ((c : Thread nD τ).loc main_arg1)
abbrev rowIdx (c : Dev nD) : IVec S2000000 32 := m ((c : Thread nD τ).loc main_arg2)
abbrev cols (c : Dev nD) : IVec S2000000 32 := m ((c : Thread nD τ).loc main_arg3)
abbrev vals (c : Dev nD) : FVec F S2000000 .f32 := m ((c : Thread nD τ).loc main_arg4)
abbrev uemb (c : Dev nD) : FVec F S100000x64 .f32 := m ((c : Thread nD τ).loc main_arg5)
abbrev iemb (c : Dev nD) : FVec F S50000x64 .f32 := m ((c : Thread nD τ).loc main_arg6)
/-- The node table of the launch's embeddings. -/
abbrev x0 (c : Dev nD) : FVec F S150000x64 .f32 := table (uemb m c) (iemb m c)

/-! ## A reshape of the weights to a column is their broadcast to a column -/

theorem column_eq (v : FVec F S2000000 .f32) : shapeCast S2000000x1 v shapeCasts_S2000000_S2000000x1 = column v := by
  funext j
  have hj0 : (j 0).val < 2000000 := (j 0).isLt
  have hj1 : (j 1).val < 1 := (j 1).isLt
  unfold column
  refine (shapeCast_apply v _ j (ix1 ⟨(j 0).val, hj0⟩) ?_).trans (broadcastInDim_apply _ _ v j (ix1 ⟨(j 0).val, hj0⟩) ?_).symm
  · rw [Shape.rowMajor_val_one, Shape.rowMajor_val_two]
    show (j 0).val = (j 0).val * 1 + (j 1).val
    omega
  · intro a
    match a with
    | ⟨0, _⟩ => rfl

/-! ## Two boundaries at a time: a buffer neither a stretch writes nor its region stages -/

theorem span02 (c : Dev nD) (r : Ref sig .tc) (h : r ∉ wr0) (g : ∀ w, Pipeline.arrRef spec0 w ≠ r) :
    W2 m ρ c (Proc.devRef .tc r) = W0 m ρ c (Proc.devRef .tc r) := (W2_of_ne m ρ c r g).trans (keep0 m ρ c r h)
theorem span24 (c : Dev nD) (r : Ref sig .tc) (h : r ∉ wr1) (g : ∀ w, Pipeline.arrRef spec1 w ≠ r) :
    W4 m ρ c (Proc.devRef .tc r) = W2 m ρ c (Proc.devRef .tc r) := (W4_of_ne m ρ c r g).trans (keep1 m ρ c r h)
theorem span46 (c : Dev nD) (r : Ref sig .tc) (h : r ∉ wr2) (g : ∀ w, Pipeline.arrRef spec2 w ≠ r) :
    W6 m ρ c (Proc.devRef .tc r) = W4 m ρ c (Proc.devRef .tc r) := (W6_of_ne m ρ c r g).trans (keep2 m ρ c r h)
theorem span68 (c : Dev nD) (r : Ref sig .tc) (h : r ∉ wr3) (g : ∀ w, Pipeline.arrRef spec3 w ≠ r) :
    W8 m ρ c (Proc.devRef .tc r) = W6 m ρ c (Proc.devRef .tc r) := (W8_of_ne m ρ c r g).trans (keep3 m ρ c r h)
theorem span810 (c : Dev nD) (r : Ref sig .tc) (h : r ∉ wr4) (g : ∀ w, Pipeline.arrRef spec4 w ≠ r) :
    W10 m ρ c (Proc.devRef .tc r) = W8 m ρ c (Proc.devRef .tc r) := (W10_of_ne m ρ c r g).trans (keep4 m ρ c r h)
theorem span1012 (c : Dev nD) (r : Ref sig .tc) (h : r ∉ wr5) (g : ∀ w, Pipeline.arrRef spec5 w ≠ r) :
    W12 m ρ c (Proc.devRef .tc r) = W10 m ρ c (Proc.devRef .tc r) := (W12_of_ne m ρ c r g).trans (keep5 m ρ c r h)

/-! ## The arguments where later items read them -/

theorem W2_rowIdx (c : Dev nD) : W2 m ρ c (Proc.devRef .tc main_arg2) = rowIdx m c :=
  (span02 m ρ c main_arg2 (by decide) (by decide)).trans rfl
theorem W6_rowIdx (c : Dev nD) : W6 m ρ c (Proc.devRef .tc main_arg2) = rowIdx m c :=
  (span46 m ρ c main_arg2 (by decide) (by decide)).trans ((span24 m ρ c main_arg2 (by decide) (by decide)).trans (W2_rowIdx m ρ c))
theorem W10_rowIdx (c : Dev nD) : W10 m ρ c (Proc.devRef .tc main_arg2) = rowIdx m c :=
  (span810 m ρ c main_arg2 (by decide) (by decide)).trans ((span68 m ρ c main_arg2 (by decide) (by decide)).trans (W6_rowIdx m ρ c))
theorem W4_cols (c : Dev nD) : W4 m ρ c (Proc.devRef .tc main_arg3) = cols m c :=
  (span24 m ρ c main_arg3 (by decide) (by decide)).trans ((span02 m ρ c main_arg3 (by decide) (by decide)).trans rfl)
theorem W8_cols (c : Dev nD) : W8 m ρ c (Proc.devRef .tc main_arg3) = cols m c :=
  (span68 m ρ c main_arg3 (by decide) (by decide)).trans ((span46 m ρ c main_arg3 (by decide) (by decide)).trans (W4_cols m ρ c))
theorem W4_vals (c : Dev nD) : W4 m ρ c (Proc.devRef .tc main_arg4) = vals m c :=
  (span24 m ρ c main_arg4 (by decide) (by decide)).trans ((span02 m ρ c main_arg4 (by decide) (by decide)).trans rfl)
theorem W8_vals (c : Dev nD) : W8 m ρ c (Proc.devRef .tc main_arg4) = vals m c :=
  (span68 m ρ c main_arg4 (by decide) (by decide)).trans ((span46 m ρ c main_arg4 (by decide) (by decide)).trans (W4_vals m ρ c))
theorem W12_users (c : Dev nD) : W12 m ρ c (Proc.devRef .tc main_arg0) = users m c :=
  (span1012 m ρ c main_arg0 (by decide) (by decide)).trans ((span810 m ρ c main_arg0 (by decide) (by decide)).trans
    ((span68 m ρ c main_arg0 (by decide) (by decide)).trans ((span46 m ρ c main_arg0 (by decide) (by decide)).trans
      ((span24 m ρ c main_arg0 (by decide) (by decide)).trans ((span02 m ρ c main_arg0 (by decide) (by decide)).trans rfl)))))
theorem W12_items (c : Dev nD) : W12 m ρ c (Proc.devRef .tc main_arg1) = items m c :=
  (span1012 m ρ c main_arg1 (by decide) (by decide)).trans ((span810 m ρ c main_arg1 (by decide) (by decide)).trans
    ((span68 m ρ c main_arg1 (by decide) (by decide)).trans ((span46 m ρ c main_arg1 (by decide) (by decide)).trans
      ((span24 m ρ c main_arg1 (by decide) (by decide)).trans ((span02 m ρ c main_arg1 (by decide) (by decide)).trans rfl)))))

/-! ## First layer -/

/-- Stretch 0 builds the node table, -/
theorem W1_table (c : Dev nD) : W1 m ρ c (Proc.devRef .tc main_v0) = x0 m c := by
  show StableHlo.after hostOps0 (W0 m ρ c) (Proc.devRef .tc main_v0) = _
  after_results
  rfl
/-- gathers the rows the edges' column indices name, -/
theorem W1_rows (c : Dev nD) : W1 m ρ c (Proc.devRef .tc main_v7) = gathered (cols m c) (x0 m c) := by
  show StableHlo.after hostOps0 (W0 m ρ c) (Proc.devRef .tc main_v7) = _
  after_results
  rfl
/-- and lays the weights out as a column. -/
theorem W1_col (c : Dev nD) : W1 m ρ c (Proc.devRef .tc main_v8) = column (vals m c) := by
  show StableHlo.after hostOps0 (W0 m ρ c) (Proc.devRef .tc main_v8) = _
  after_results
  exact column_eq (vals m c)

/-- Region 0 leaves the messages. -/
theorem W2_msgs (c : Dev nD) : W2 m ρ c (Proc.devRef .tc main_v9) = messages (vals m c) (gathered (cols m c) (x0 m c)) := by
  refine (W2_arr m ρ c 2).trans ((Msg0.exit_out (V1 m ρ) c).trans ?_)
  show Msg0.weighted (W1 m ρ c (Proc.devRef .tc main_v8)) (W1 m ρ c (Proc.devRef .tc main_v7)) = _
  rw [W1_col m ρ c, W1_rows m ρ c]
  rfl

/-- Stretch 1 collects them into the once-propagated table. -/
theorem W3_layer1 (c : Dev nD) : W3 m ρ c (Proc.devRef .tc main_v12) = layer1 (rowIdx m c) (cols m c) (vals m c) (x0 m c) := by
  show StableHlo.after hostOps1 (W2 m ρ c) (Proc.devRef .tc main_v12) = _
  after_results
  rw [W2_msgs m ρ c, W2_rowIdx m ρ c]
  rfl
/-- The node table is still there. -/
theorem W3_table (c : Dev nD) : W3 m ρ c (Proc.devRef .tc main_v0) = x0 m c :=
  (keep1 m ρ c main_v0 (by decide)).trans ((W2_of_ne m ρ c main_v0 (by decide)).trans (W1_table m ρ c))

/-- Region 1 leaves the first running sum, -/
theorem W4_sum1 (c : Dev nD) : W4 m ρ c (Proc.devRef .tc main_v13) = sum1 (rowIdx m c) (cols m c) (vals m c) (x0 m c) := by
  refine (W4_arr m ρ c 2).trans ((Acc1.exit_out (V3 m ρ) c).trans ?_)
  show addf (W3 m ρ c (Proc.devRef .tc main_v0)) (W3 m ρ c (Proc.devRef .tc main_v12)) = _
  rw [W3_table m ρ c, W3_layer1 m ρ c]
  rfl
/-- and its input, the once-propagated table, as it found it. -/
theorem W4_layer1 (c : Dev nD) : W4 m ρ c (Proc.devRef .tc main_v12) = layer1 (rowIdx m c) (cols m c) (vals m c) (x0 m c) :=
  (W4_arr m ρ c 1).trans (((dat1 (V3 m ρ) c).arrAt_in 1 rfl _).trans ((A_eq1 (V3 m ρ) c 1).trans (W3_layer1 m ρ c)))

/-! ## Second layer -/

theorem W5_rows (c : Dev nD) : W5 m ρ c (Proc.devRef .tc main_v20) = gathered (cols m c) (layer1 (rowIdx m c) (cols m c) (vals m c) (x0 m c)) := by
  show StableHlo.after hostOps2 (W4 m ρ c) (Proc.devRef .tc main_v20) = _
  after_results
  rw [W4_layer1 m ρ c, W4_cols m ρ c]
  rfl
theorem W5_col (c : Dev nD) : W5 m ρ c (Proc.devRef .tc main_v21) = column (vals m c) := by
  show StableHlo.after hostOps2 (W4 m ρ c) (Proc.devRef .tc main_v21) = _
  after_results
  rw [W4_vals m ρ c]
  exact column_eq (vals m c)
theorem W6_msgs (c : Dev nD) : W6 m ρ c (Proc.devRef .tc main_v22) = messages (vals m c) (gathered (cols m c) (layer1 (rowIdx m c) (cols m c) (vals m c) (x0 m c))) := by
  refine (W6_arr m ρ c 2).trans ((Msg2.exit_out (V5 m ρ) c).trans ?_)
  show Msg2.weighted (W5 m ρ c (Proc.devRef .tc main_v21)) (W5 m ρ c (Proc.devRef .tc main_v20)) = _
  rw [W5_col m ρ c, W5_rows m ρ c]
  rfl
theorem W7_layer2 (c : Dev nD) : W7 m ρ c (Proc.devRef .tc main_v25) = layer2 (rowIdx m c) (cols m c) (vals m c) (x0 m c) := by
  show StableHlo.after hostOps3 (W6 m ρ c) (Proc.devRef .tc main_v25) = _
  after_results
  rw [W6_msgs m ρ c, W6_rowIdx m ρ c]
  rfl
theorem W7_sum1 (c : Dev nD) : W7 m ρ c (Proc.devRef .tc main_v13) = sum1 (rowIdx m c) (cols m c) (vals m c) (x0 m c) :=
  (keep3 m ρ c main_v13 (by decide)).trans ((W6_of_ne m ρ c main_v13 (by decide)).trans ((keep2 m ρ c main_v13 (by decide)).trans (W4_sum1 m ρ c)))
theorem W8_sum2 (c : Dev nD) : W8 m ρ c (Proc.devRef .tc main_v26) = sum2 (rowIdx m c) (cols m c) (vals m c) (x0 m c) := by
  refine (W8_arr m ρ c 2).trans ((Acc3.exit_out (V7 m ρ) c).trans ?_)
  show addf (W7 m ρ c (Proc.devRef .tc main_v13)) (W7 m ρ c (Proc.devRef .tc main_v25)) = _
  rw [W7_sum1 m ρ c, W7_layer2 m ρ c]
  rfl
theorem W8_layer2 (c : Dev nD) : W8 m ρ c (Proc.devRef .tc main_v25) = layer2 (rowIdx m c) (cols m c) (vals m c) (x0 m c) :=
  (W8_arr m ρ c 1).trans (((dat3 (V7 m ρ) c).arrAt_in 1 rfl _).trans ((A_eq3 (V7 m ρ) c 1).trans (W7_layer2 m ρ c)))

/-! ## Third layer -/

theorem W9_rows (c : Dev nD) : W9 m ρ c (Proc.devRef .tc main_v33) = gathered (cols m c) (layer2 (rowIdx m c) (cols m c) (vals m c) (x0 m c)) := by
  show StableHlo.after hostOps4 (W8 m ρ c) (Proc.devRef .tc main_v33) = _
  after_results
  rw [W8_layer2 m ρ c, W8_cols m ρ c]
  rfl
theorem W9_col (c : Dev nD) : W9 m ρ c (Proc.devRef .tc main_v34) = column (vals m c) := by
  show StableHlo.after hostOps4 (W8 m ρ c) (Proc.devRef .tc main_v34) = _
  after_results
  rw [W8_vals m ρ c]
  exact column_eq (vals m c)
theorem W10_msgs (c : Dev nD) : W10 m ρ c (Proc.devRef .tc main_v35) = messages (vals m c) (gathered (cols m c) (layer2 (rowIdx m c) (cols m c) (vals m c) (x0 m c))) := by
  refine (W10_arr m ρ c 2).trans ((Msg4.exit_out (V9 m ρ) c).trans ?_)
  show Msg4.weighted (W9 m ρ c (Proc.devRef .tc main_v34)) (W9 m ρ c (Proc.devRef .tc main_v33)) = _
  rw [W9_col m ρ c, W9_rows m ρ c]
  rfl
theorem W11_layer3 (c : Dev nD) : W11 m ρ c (Proc.devRef .tc main_v38) = layer3 (rowIdx m c) (cols m c) (vals m c) (x0 m c) := by
  show StableHlo.after hostOps5 (W10 m ρ c) (Proc.devRef .tc main_v38) = _
  after_results
  rw [W10_msgs m ρ c, W10_rowIdx m ρ c]
  rfl
theorem W11_sum2 (c : Dev nD) : W11 m ρ c (Proc.devRef .tc main_v26) = sum2 (rowIdx m c) (cols m c) (vals m c) (x0 m c) :=
  (keep5 m ρ c main_v26 (by decide)).trans ((W10_of_ne m ρ c main_v26 (by decide)).trans ((keep4 m ρ c main_v26 (by decide)).trans (W8_sum2 m ρ c)))
theorem W12_sum3 (c : Dev nD) : W12 m ρ c (Proc.devRef .tc main_v39) = sum3 (rowIdx m c) (cols m c) (vals m c) (x0 m c) := by
  refine (W12_arr m ρ c 2).trans ((Acc5.exit_out (V11 m ρ) c).trans ?_)
  show addf (W11 m ρ c (Proc.devRef .tc main_v26)) (W11 m ρ c (Proc.devRef .tc main_v38)) = _
  rw [W11_sum2 m ρ c, W11_layer3 m ρ c]
  rfl

/-! ## The mean, the batch's rows, the scores -/

theorem W13_users (c : Dev nD) : W13 m ρ c (Proc.devRef .tc main_v50) = userRows (users m c) (averaged (rowIdx m c) (cols m c) (vals m c) (x0 m c)) := by
  show StableHlo.after hostOps6 (W12 m ρ c) (Proc.devRef .tc main_v50) = _
  after_results
  rw [W12_sum3 m ρ c, W12_users m ρ c]
  rfl
theorem W13_items (c : Dev nD) : W13 m ρ c (Proc.devRef .tc main_v57) = itemRows (items m c) (averaged (rowIdx m c) (cols m c) (vals m c) (x0 m c)) := by
  show StableHlo.after hostOps6 (W12 m ρ c) (Proc.devRef .tc main_v57) = _
  after_results
  rw [W12_sum3 m ρ c, W12_items m ρ c]
  rfl
theorem W14_scores (c : Dev nD) : W14 m ρ c (Proc.devRef .tc main_v58)
    = k6_pay1 (userRows (users m c) (averaged (rowIdx m c) (cols m c) (vals m c) (x0 m c))) (itemRows (items m c) (averaged (rowIdx m c) (cols m c) (vals m c) (x0 m c))) := by
  refine (W14_arr m ρ c 2).trans ((Score6.exit_out (V13 m ρ) c).trans ?_)
  show k6_pay1 (W13 m ρ c (Proc.devRef .tc main_v50)) (W13 m ρ c (Proc.devRef .tc main_v57)) = _
  rw [W13_users m ρ c, W13_items m ρ c]

/-- THE RESULT BUFFER at the last boundary: the specification's function of the seven arguments. -/
theorem W15_result (c : Dev nD) : W15 m ρ c (Proc.devRef .tc main_v59)
    = kernelResult (users m c) (items m c) (rowIdx m c) (cols m c) (vals m c) (uemb m c) (iemb m c) := by
  show StableHlo.after hostOps7 (W14 m ρ c) (Proc.devRef .tc main_v59) = _
  after_results
  rw [W14_scores m ρ c]
  rfl

/-- THE KERNEL'S RUN, read: every weakly fair execution terminates without a fault with the result array at
    `kernelResult` of the arguments as launched, and the arguments unchanged. -/
theorem run : θ_run defs (onTc (τ := τ) (main (F := F))) ⟨m, fun _ => 0, ρ⟩ (fun r => ∀ c : Dev nD,
      r.2.mem ((c.tc : Thread nD τ).loc main_v59)
        = kernelResult (users m c) (items m c) (rowIdx m c) (cols m c) (vals m c) (uemb m c) (iemb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W15_result m ρ c), (h c).2⟩) (ResultRun.run_result m ρ)

end Cert.KernelIdeal.Walk

end
-- ==== Proof.Bridge.lean ====
/- The one place where the two programs differ in more than layout, and the one law that joins them. The kernel sums
   each row's 64 products with a lane reduction from the neutral accumulator, stores the 16384 sums as a column and
   the host reads the column flat; the reference sums the same products with a host reduction that starts from a
   zero. Over the extended reals both are the plain finite sum of the row's products: the column and the flat
   reading are the same entries, and zero added on the left changes nothing. No finiteness is used. -/
import proofs.«159684_j14748917694876_1_alg».proof.Proof.Spec
import Idealize.ShloMosaic.PureOps.Ideal.Laws
import Idealize.ShloMosaic.Lib.IdealHost
import Idealize.ShloMosaic.Lib.Pipeline.Value

noncomputable section

namespace Cert.KernelIdeal.Bridge

open Cert.KernelIdeal Cert.KernelIdeal.Gen Cert.KernelIdeal.Spec
open Idealize.ShloMosaic

/-- The splat zero the host sum starts from is the extended real zero. -/
theorem start_zero : (constant S_ .f32 0x00000000#32 : FVec Ideal S_ .f32) (Shape.Idx.first scalar_pos) = 0 :=
  Ideal.ofBits_zero_f32

/-- Row by row, the lane sums read flat are the host sums from zero. -/
theorem scores_eq (hu hi : FVec Ideal S16384x64 .f32) : laneScores (F := Ideal) hu hi = hostScores (F := Ideal) hu hi := by
  funext j
  unfold laneScores hostScores
  rw [ValueIdx.hostReduceAdd_apply, Ideal.hostReduceAdd_single rowSums reduces_S16384x64_S16384, start_zero, zero_add]
  unfold k6_pay1
  show shapeCast S16384 (shapeCast S16384x1 (multiReduction .add [1] S16384
      (mulf (shapeCast S16384x64 hu shapeCasts_S16384x64_S16384x64) (shapeCast S16384x64 hi shapeCasts_S16384x64_S16384x64))
      0x00000000#32 reduces_S16384x64_S16384 (.inl rfl) rfl) shapeCasts_S16384_S16384x1) shapeCasts_S16384x1_S16384 j = _
  rw [shapeCast_shapeCast, shapeCast_self, shapeCast_self]
  exact Ideal.multiReduction_add_single (mulf hu hi) 0x00000000#32 reduces_S16384x64_S16384 (.inl rfl) rfl j

/-- So at the extended reals the kernel's result and the reference's are one function of the seven arguments. -/
theorem result_eq (users items : IVec S16384 32) (rowIdx cols : IVec S2000000 32) (vals : FVec Ideal S2000000 .f32)
    (uemb : FVec Ideal S100000x64 .f32) (iemb : FVec Ideal S50000x64 .f32) :
    kernelResult (F := Ideal) users items rowIdx cols vals uemb iemb
      = referenceResult (F := Ideal) users items rowIdx cols vals uemb iemb := by
  unfold kernelResult referenceResult
  exact scores_eq _ _

end Cert.KernelIdeal.Bridge

end
-- ==== Proof.RefSide.lean ====
/- The reference's result as the specification's function of its seven arguments. The reference is host operations
   only; its generated run states its result as one composed term of the launch contents. That term is, operation
   for operation, the specification's chain: the node table, three propagations, the running sums, the mean, the
   batch's rows, the host sum of products. -/
import proofs.«159684_j14748917694876_1_alg».proof.Proof.Gen.ReferenceIdeal.Run
import proofs.«159684_j14748917694876_1_alg».proof.Proof.Spec

set_option maxRecDepth 16384

noncomputable section

namespace Cert.ReferenceIdeal.RefSide

open Idealize.ShloMosaic Idealize.ShloMosaic.TcCoe Idealize.SL.Sem

variable {F : FTy → Type} [FloatOps F]

/-- The reference's composed result term IS `referenceResult` of its argument arrays. -/
theorem result_eq (m : (ℓ : Loc Cert.ReferenceIdeal.nD Cert.ReferenceIdeal.τ Cert.ReferenceIdeal.sig) → Buf (Elt F) ℓ)
    (c : Dev Cert.ReferenceIdeal.nD) :
    Cert.ReferenceIdeal.Value.res_main_v62 m c
      = Cert.KernelIdeal.Spec.referenceResult (F := F)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  unfold Cert.ReferenceIdeal.Value.res_main_v62
  rfl

end Cert.ReferenceIdeal.RefSide

end
-- ==== Proof.lean ====
/- The certificate of the message-passing kernel against its reference, over the extended reals.
   The kernel's program runs seven regions among eight host stretches: three times a gather of node rows along the
   edges' column indices, the weighted-message product (a region), the scatter-add into the edges' row indices and
   the running sum (a region); then the mean of the four tables, the batch's user and item rows, and the row sums
   of their products (a region). The reference does the same with host operations throughout. The frames of the
   two kernel programs are the generated ones; the reference's frame is its generated run with the result dropped;
   the idealization rewrote nothing. For the value: the kernel's run is read back through its boundaries to one
   function of the arguments (`Walk.run`), the reference's generated run states one composed term that is the
   specification's `referenceResult` (`RefSide.result_eq`), and the two functions agree by the one law that the lane
   sums read flat are the host sums from zero (`Bridge.result_eq`). -/
import proofs.«159684_j14748917694876_1_alg».proof.Defs
import proofs.«159684_j14748917694876_1_alg».proof.Proof.Gen.Kernel
import proofs.«159684_j14748917694876_1_alg».proof.Proof.Gen.Kernel.Skeleton
import proofs.«159684_j14748917694876_1_alg».proof.Proof.Gen.Kernel.Launch
import proofs.«159684_j14748917694876_1_alg».proof.Proof.Gen.Kernel.Points
import proofs.«159684_j14748917694876_1_alg».proof.Proof.Gen.Kernel.Frame
import proofs.«159684_j14748917694876_1_alg».proof.Proof.Gen.KernelIdeal
import proofs.«159684_j14748917694876_1_alg».proof.Proof.Gen.KernelIdeal.Skeleton
import proofs.«159684_j14748917694876_1_alg».proof.Proof.Gen.KernelIdeal.Launch
import proofs.«159684_j14748917694876_1_alg».proof.Proof.Gen.KernelIdeal.Points
import proofs.«159684_j14748917694876_1_alg».proof.Proof.Gen.KernelIdeal.Frame
import proofs.«159684_j14748917694876_1_alg».proof.Proof.Gen.ReferenceIdeal
import proofs.«159684_j14748917694876_1_alg».proof.Proof.Gen.ReferenceIdeal.Run
import proofs.«159684_j14748917694876_1_alg».proof.Proof.Gen.Pre_finite_inputs
import proofs.«159684_j14748917694876_1_alg».proof.Proof.Walk
import proofs.«159684_j14748917694876_1_alg».proof.Proof.Bridge
import proofs.«159684_j14748917694876_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : @Cert.frame_Kernel Cert.Kernel.Gen.facts Cert.Pre_finite_inputs.Gen.facts :=
  fun m ρ _ => Cert.Kernel.Gen.frame m ρ

/-- The idealized kernel runs and keeps its arguments: the generated frame. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its generated run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the seven arguments both programs end, over the extended reals, with the same
    16384 scores: the kernel's at `kernelResult` of its arguments, the reference's at `referenceResult` of its own,
    the arguments equal, and the two functions equal. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Spec.kernelResult (F := Ideal) (Cert.KernelIdeal.Walk.users m c) (Cert.KernelIdeal.Walk.items m c)
      (Cert.KernelIdeal.Walk.rowIdx m c) (Cert.KernelIdeal.Walk.cols m c) (Cert.KernelIdeal.Walk.vals m c)
      (Cert.KernelIdeal.Walk.uemb m c) (Cert.KernelIdeal.Walk.iemb m c), Cert.KernelIdeal.Walk.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefSide.result_eq m' c]
  obtain ⟨h0, h1, h2, h3, h4, h5, h6⟩ := hagree c
  rw [h0, h1, h2, h3, h4, h5, h6]
  exact (Cert.KernelIdeal.Bridge.result_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
